-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x64 : Shape := ⟨3, ![1024, 1024, 64]⟩
abbrev S4096x64 : Shape := ⟨2, ![4096, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1048576x2 : Shape := ⟨2, ![1048576, 2]⟩
abbrev S1048576 : Shape := ⟨1, ![1048576]⟩
abbrev S_ : Shape := ⟨0, ![]⟩

class Facts : Prop where
  bcast_S_S1024x1024x64 : S_.BroadcastsInDim S1024x1024x64 (![] : Fin 0 → Fin S1024x1024x64.rank)
  reducesTo_S1024x1024x64_S_d0_1_2 : S1024x1024x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1048576x2 : S_.BroadcastsInDim S1048576x2 (![] : Fin 0 → Fin S1048576x2.rank)
  reducesTo_S1048576x2_S_d0_1 : S1048576x2.ReducesTo [0, 1] S_
  bcast_S_S1048576 : S_.BroadcastsInDim S1048576 (![] : Fin 0 → Fin S1048576.rank)
  reducesTo_S1048576_S_d0 : S1048576.ReducesTo [0] S_

variable [Facts]

def fn_part2 {F : FTy → Type} [FloatOps F] (main_arg7 : IVec S1048576 32) (main_v28 : IVec S_ 1) (main_v33 : IVec S1048576x2 1) : IVec S_ 1 :=
  let main_c_12 : IVec S_ 1 := constantI S_ 1 1#1
  let main_v34 : IVec S_ 1 := (fun x v => Host.reduce IntOp.andi x v reducesTo_S1048576x2_S_d0_1 h_S_) main_v33 main_c_12
  let main_v35 : IVec S_ 1 := andi main_v28 main_v34
  let main_c_13 : IVec S_ 32 := constantI S_ 32 0#32
  let main_v36 : IVec S1048576 32 := broadcastInDim S1048576 ![] bcast_S_S1048576 main_c_13
  let main_v37 : IVec S1048576 1 := cmpi .sge main_arg7 main_v36
  let main_c_14 : IVec S_ 32 := constantI S_ 32 4096#32
  let main_v38 : IVec S1048576 32 := broadcastInDim S1048576 ![] bcast_S_S1048576 main_c_14
  let main_v39 : IVec S1048576 1 := cmpi .slt main_arg7 main_v38
  let main_v40 : IVec S1048576 1 := andi main_v37 main_v39
  let main_c_15 : IVec S_ 1 := constantI S_ 1 1#1
  let main_v41 : IVec S_ 1 := (fun x v => Host.reduce IntOp.andi x v reducesTo_S1048576_S_d0 h_S_) main_v40 main_c_15
  let main_v42 : IVec S_ 1 := andi main_v35 main_v41
  main_v42

def fn_part1 {F : FTy → Type} [FloatOps F] (main_arg4 : FVec F S128x64 .f32) (main_arg5 : FVec F S64 .f32) (main_arg6 : IVec S1048576x2 32) (main_arg7 : IVec S1048576 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S1048576x2 32 := broadcastInDim S1048576x2 ![] bcast_S_S1048576x2 main_c_10
  let main_v30 : IVec S1048576x2 1 := cmpi .sge main_arg6 main_v29
  let main_c_11 : IVec S_ 32 := constantI S_ 32 1024#32
  let main_v31 : IVec S1048576x2 32 := broadcastInDim S1048576x2 ![] bcast_S_S1048576x2 main_c_11
  let main_v32 : IVec S1048576x2 1 := cmpi .slt main_arg6 main_v31
  let main_v33 : IVec S1048576x2 1 := andi main_v30 main_v32
  fn_part2 (F := F) main_arg7 main_v28 main_v33

def fn {F : FTy → Type} [FloatOps F] (main_arg0 : FVec F S1024x1024x64 .f32) (main_arg1 : FVec F S4096x64 .f32) (main_arg2 : FVec F S128x128 .f32) (main_arg3 : FVec F S128 .f32) (main_arg4 : FVec F S128x64 .f32) (main_arg5 : FVec F S64 .f32) (main_arg6 : IVec S1048576x2 32) (main_arg7 : IVec S1048576 32) : IVec S_ 1 :=
  let main_v0 : FVec F S1024x1024x64 .f32 := Host.absf main_arg0
  let main_cst : FVec F S_ .f32 := constant S_ .f32 0x7F800000#32
  let main_v1 : FVec F S1024x1024x64 .f32 := broadcastInDim S1024x1024x64 ![] bcast_S_S1024x1024x64 main_cst
  let main_v2 : IVec S1024x1024x64 1 := cmpf .olt main_v0 main_v1
  let main_c : IVec S_ 1 := constantI S_ 1 1#1
  let main_v3 : IVec S_ 1 := (fun x v => Host.reduce IntOp.andi x v reducesTo_S1024x1024x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S1024x1024x64 : Shape := ⟨3, ![1024, 1024, 64]⟩
abbrev S4096x64 : Shape := ⟨2, ![4096, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1048576x2 : Shape := ⟨2, ![1048576, 2]⟩
abbrev S1048576 : Shape := ⟨1, ![1048576]⟩
abbrev S1048576x1 : Shape := ⟨2, ![1048576, 1]⟩
abbrev S_ : Shape := ⟨0, ![]⟩
abbrev S1024x1024 : Shape := ⟨2, ![1024, 1024]⟩
abbrev S16x128x64 : Shape := ⟨3, ![16, 128, 64]⟩
abbrev S16x128 : Shape := ⟨2, ![16, 128]⟩
abbrev S1x1x4096 : Shape := ⟨3, ![1, 1, 4096]⟩
abbrev S16x128x1 : Shape := ⟨3, ![16, 128, 1]⟩
abbrev S16x128x4096 : Shape := ⟨3, ![16, 128, 4096]⟩
abbrev S2048x4096 : Shape := ⟨2, ![2048, 4096]⟩
abbrev S2048x64 : Shape := ⟨2, ![2048, 64]⟩
abbrev S16x128x128 : Shape := ⟨3, ![16, 128, 128]⟩
abbrev S2048x128 : Shape := ⟨2, ![2048, 128]⟩
abbrev S1x128 : Shape := ⟨2, ![1, 128]⟩
abbrev S1x64 : Shape := ⟨2, ![1, 64]⟩

abbrev nBuf : Space → Nat
  | .hbm => 46
  | .vmem => 13
  | .smem => 0
  | _ => 0

abbrev bufTy : (tb : Table) → Fin (tcTables nBuf tb) → BufTy
  | .hbm, ⟨0, _⟩ => ⟨S1024x1024x64, .f32⟩
  | .hbm, ⟨1, _⟩ => ⟨S4096x64, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1048576x2, .i32⟩
  | .hbm, ⟨7, _⟩ => ⟨S1048576, .i32⟩
  | .hbm, ⟨8, _⟩ => ⟨S1048576x1, .i32⟩
  | .hbm, ⟨9, _⟩ => ⟨S1048576, .i32⟩
  | .hbm, ⟨10, _⟩ => ⟨S1048576x1, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S_, .i32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S1048576x1, .i32⟩
  | .hbm, ⟨26, _⟩ => ⟨S1048576, .i32⟩
  | .hbm, ⟨27, _⟩ => ⟨S_, .f32⟩
  | .hbm, ⟨28, _⟩ => ⟨S1048576, .f32⟩
  | .hbm, ⟨29, _⟩ => ⟨S_, .f32⟩
  | .hbm, ⟨30, _⟩ => ⟨S1048576, .f32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S1048576, .f32⟩
  | .hbm, ⟨40, _⟩ => ⟨S1024x1024, .i32⟩
  | .hbm, ⟨41, _⟩ => ⟨S1024x1024, .f32⟩
  | .hbm, ⟨42, _⟩ => ⟨S4096x64, .bf16⟩
  | .hbm, ⟨43, _⟩ => ⟨S128x128, .bf16⟩
  | .hbm, ⟨44, _⟩ => ⟨S128x64, .bf16⟩
  | .hbm, ⟨45, _⟩ => ⟨S1024x1024x64, .f32⟩
  | .local _ .vmem, ⟨0, _⟩ => ⟨S16x128x64, .f32⟩
  | .local _ .vmem, ⟨1, _⟩ => ⟨S16x128x64, .f32⟩
  | .local _ .vmem, ⟨2, _⟩ => ⟨S16x128, .i32⟩
  | .local _ .vmem, ⟨3, _⟩ => ⟨S16x128, .i32⟩
  | .local _ .vmem, ⟨4, _⟩ => ⟨S16x128, .f32⟩
  | .local _ .vmem, ⟨5, _⟩ => ⟨S16x128, .f32⟩
  | .local _ .vmem, ⟨6, _⟩ => ⟨S4096x64, .bf16⟩
  | .local _ .vmem, ⟨7, _⟩ => ⟨S128x128, .bf16⟩
  | .local _ .vmem, ⟨8, _⟩ => ⟨S128, .f32⟩
  | .local _ .vmem, ⟨9, _⟩ => ⟨S128x64, .bf16⟩
  | .local _ .vmem, ⟨10, _⟩ => ⟨S64, .f32⟩
  | .local _ .vmem, ⟨11, _⟩ => ⟨S16x128x64, .f32⟩
  | .local _ .vmem, ⟨12, _⟩ => ⟨S16x128x64, .f32⟩
  | _, _ => ⟨S1024x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![64, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576_S1024x1024 : S1048576.ShapeCasts S1024x1024
  bitsLt_bf16_f32 : FTy.bits .bf16 < FTy.bits .f32
  inb_S16x128x64_S16x128x64_0_0_0 : ∀ a, (![0, 0, 0] : Fin 3 → Nat) a + S16x128x64.size a ≤ S16x128x64.size a
  h_S16x128x64 : 0 < S16x128x64.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  iota_S1x1x4096_d2_w32 : S1x1x4096.Iotas .tc 32 [2]
  shapeCasts_S16x128_S16x128x1 : S16x128.ShapeCasts S16x128x1
  broadcasts_S16x128x1_S16x128x4096 : S16x128x1.Broadcasts S16x128x4096
  broadcasts_S1x1x4096_S16x128x4096 : S1x1x4096.Broadcasts S16x128x4096
  natLt_1_32 : 1 < 32
  shapeCasts_S16x128x4096_S2048x4096 : S16x128x4096.ShapeCasts S2048x4096
  shapeCasts_S2048x64_S16x128x64 : S2048x64.ShapeCasts S16x128x64
  concatenates_S16x128x64_S16x128x64_S16x128x128_d2 : Shape.Concatenates [S16x128x64, S16x128x64] S16x128x128 2
  shapeCasts_S16x128x128_S2048x128 : S16x128x128.ShapeCasts S2048x128
  shapeCasts_S128_S1x128 : S128.ShapeCasts S1x128
  broadcasts_S1x128_S2048x128 : S1x128.Broadcasts S2048x128
  shapeCasts_S64_S1x64 : S64.ShapeCasts S1x64
  broadcasts_S1x64_S2048x64 : S1x64.Broadcasts S2048x64
  broadcasts_S16x128x1_S16x128x64 : S16x128x1.Broadcasts S16x128x64
  scatter_S1048576_S1048576x1_S1048576_n_0_0_1_wf : ScatterDims.WF S1048576 S1048576x1 S1048576 [] [0] [0] 1
  dot_S2048x4096_S4096x64_S2048x64_1_0_0_1_n_n_wf : DotDims.WF S2048x4096 S4096x64 S2048x64 [1] [0] [0] [1] [] []
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x64.size a ≤ S1024x1024x64.size a
  hwx0_0 : ∀ i : grid0.Coords, EltTy.bits .f32 = 32 ∨ (Rect.block (s := S1024x1024x64) S16x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S1024x1024.size a
  hwx0_1 : ∀ i : grid0.Coords, EltTy.bits .i32 = 32 ∨ (Rect.block (s := S1024x1024) S16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S1024x1024.size a
  hwx0_2 : ∀ i : grid0.Coords, EltTy.bits .f32 = 32 ∨ (Rect.block (s := S1024x1024) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128x64.size a ≤ S1024x1024x64.size a
  hwx0_8 : ∀ i : grid0.Coords, EltTy.bits .f32 = 32 ∨ (Rect.block (s := S1024x1024x64) S16x128x64.size (cc0_transform_8 i) (hinb0_8 i)).WholeWords (EltTy.packing .f32)

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_arg0) S16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S16x128x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x1024x64 : Shape := ⟨3, ![1024, 1024, 64]⟩
abbrev S4096x64 : Shape := ⟨2, ![4096, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1048576x2 : Shape := ⟨2, ![1048576, 2]⟩
abbrev S1048576 : Shape := ⟨1, ![1048576]⟩
abbrev S1048576x1 : Shape := ⟨2, ![1048576, 1]⟩
abbrev S_ : Shape := ⟨0, ![]⟩
abbrev S1048576x64 : Shape := ⟨2, ![1048576, 64]⟩
abbrev S1048576x128 : Shape := ⟨2, ![1048576, 128]⟩
abbrev S1x128 : Shape := ⟨2, ![1, 128]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S1024x1024x64, .f32⟩
  | .hbm, ⟨1, _⟩ => ⟨S4096x64, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1048576x2, .i32⟩
  | .hbm, ⟨7, _⟩ => ⟨S1048576, .i32⟩
  | .hbm, ⟨8, _⟩ => ⟨S1048576x1, .i32⟩
  | .hbm, ⟨9, _⟩ => ⟨S1048576, .i32⟩
  | .hbm, ⟨10, _⟩ => ⟨S1048576x1, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S1048576x1, .i32⟩
  | .hbm, ⟨27, _⟩ => ⟨S1048576x1, .i32⟩
  | .hbm, ⟨28, _⟩ => ⟨S1048576x2, .i32⟩
  | .hbm, ⟨29, _⟩ => ⟨S1048576x64, .f32⟩
  | .hbm, ⟨30, _⟩ => ⟨S_, .i32⟩
  | .hbm, ⟨31, _⟩ => ⟨S1048576, .i32⟩
  | .hbm, ⟨32, _⟩ => ⟨S1048576, .i1⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576x1, .i32⟩
  | .hbm, ⟨38, _⟩ => ⟨S1048576x64, .f32⟩
  | .hbm, ⟨39, _⟩ => ⟨S1048576x128, .f32⟩
  | .hbm, ⟨40, _⟩ => ⟨S1048576x128, .f32⟩
  | .hbm, ⟨41, _⟩ => ⟨S1x128, .f32⟩
  | .hbm, ⟨42, _⟩ => ⟨S1048576x128, .f32⟩
  | .hbm, ⟨43, _⟩ => ⟨S1048576x128, .f32⟩
  | .hbm, ⟨44, _⟩ => ⟨S_, .f32⟩
  | .hbm, ⟨45, _⟩ => ⟨S1048576x128, .f32⟩
  | .hbm, ⟨46, _⟩ => ⟨S1048576x128, .f32⟩
  | .hbm, ⟨47, _⟩ => ⟨S1048576x64, .f32⟩
  | .hbm, ⟨48, _⟩ => ⟨S1x64, .f32⟩
  | .hbm, ⟨49, _⟩ => ⟨S1048576x64, .f32⟩
  | .hbm, ⟨50, _⟩ => ⟨S1048576x64, .f32⟩
  | .hbm, ⟨51, _⟩ => ⟨S_, .f32⟩
  | .hbm, ⟨52, _⟩ => ⟨S1024x1024x64, .f32⟩
  | .hbm, ⟨53, _⟩ => ⟨S_, .i32⟩
  | .hbm, ⟨54, _⟩ => ⟨S1048576, .i32⟩
  | .hbm, ⟨55, _⟩ => ⟨S1048576, .i1⟩
  | .hbm, ⟨56, _⟩ => ⟨S_, .i32⟩
  | .hbm, ⟨57, _⟩ => ⟨S1048576, .i32⟩
  | .hbm, ⟨58, _⟩ => ⟨S1048576, .i32⟩
  | .hbm, ⟨59, _⟩ => ⟨S1048576, .i32⟩
  | .hbm, ⟨60, _⟩ => ⟨S_, .i32⟩
  | .hbm, ⟨61, _⟩ => ⟨S1048576, .i32⟩
  | .hbm, ⟨62, _⟩ => ⟨S1048576, .i1⟩
  | .hbm, ⟨63, _⟩ => ⟨S_, .i32⟩
  | .hbm, ⟨64, _⟩ => ⟨S1048576, .i32⟩
  | .hbm, ⟨65, _⟩ => ⟨S1048576, .i32⟩
  | .hbm, ⟨66, _⟩ => ⟨S1048576, .i32⟩
  | .hbm, ⟨67, _⟩ => ⟨S1048576x1, .i32⟩
  | .hbm, ⟨68, _⟩ => ⟨S1048576x1, .i32⟩
  | .hbm, ⟨69, _⟩ => ⟨S1048576x2, .i32⟩
  | .hbm, ⟨70, _⟩ => ⟨S1024x1024x64, .f32⟩
  | _, _ => ⟨S1024x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  concatenates_S1048576x64_S1048576x64_S1048576x128_d1 : Shape.Concatenates [S1048576x64, S1048576x64] S1048576x128 1
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1024x1024x64 : S_.BroadcastsInDim S1024x1024x64 (![] : Fin 0 → Fin S1024x1024x64.rank)
  gather_S1024x1024x64_S1048576x2_S1048576x64_1_01_n_n_01_1_1164_wf : GatherDims.WF S1024x1024x64 S1048576x2 S1048576x64 [1] [0, 1] [] [0, 1] [] 1 ![1, 1, 64]
  gather_S4096x64_S1048576x1_S1048576x64_1_0_n_n_0_1_164_wf : GatherDims.WF S4096x64 S1048576x1 S1048576x64 [1] [0] [] [0] [] 1 ![1, 64]
  dot_S1048576x128_S128x128_S1048576x128_1_0_0_1_n_n_wf : DotDims.WF S1048576x128 S128x128 S1048576x128 [1] [0] [0] [1] [] []
  dot_S1048576x128_S128x64_S1048576x64_1_0_0_1_n_n_wf : DotDims.WF S1048576x128 S128x64 S1048576x64 [1] [0] [0] [1] [] []
  scatter_S1024x1024x64_S1048576x2_S1048576x64_1_01_01_1_wf : ScatterDims.WF S1024x1024x64 S1048576x2 S1048576x64 [1] [0, 1] [0, 1] 1

variable [Facts₀]

def gather_S1024x1024x64_S1048576x2_S1048576x64_1_01_n_n_01_1_1164 : GatherDims S1024x1024x64 S1048576x2 S1048576x64 where
  offsetDims := [1]
  collapsedSliceDims := [0, 1]
  operandBatchingDims := []
  startIndicesBatchingDims := []
  startIndexMap := [0, 1]
  indexVectorDim := 1
  sliceSizes := ![1, 1, 64]
  wf := gather_S1024x1024x64_S1048576x2_S1048576x64_1_01_n_n_01_1_1164_wf
def gather_S4096x64_S1048576x1_S1048576x64_1_0_n_n_0_1_164 : GatherDims S4096x64 S1048576x1 S1048576x64 where
  offsetDims := [1]
  collapsedSliceDims := [0]
  operandBatchingDims := []
  startIndicesBatchingDims := []
  startIndexMap := [0]
  indexVectorDim := 1
  sliceSizes := ![1, 64]
  wf := gather_S4096x64_S1048576x1_S1048576x64_1_0_n_n_0_1_164_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def scatter_S1024x1024x64_S1048576x2_S1048576x64_1_01_01_1 : ScatterDims S1024x1024x64 S1048576x2 S1048576x64 where
  updateWindowDims := [1]
  insertedWindowDims := [0, 1]
  scatterDimsToOperandDims := [0, 1]
  indexVectorDim := 1
  wf := scatter_S1024x1024x64_S1048576x2_S1048576x64_1_01_01_1_wf

class Facts : Prop extends Facts₀ where

variable [Facts]
-- ==== Proof.Spec.lean ====
/-
  The bird's-eye-view feature grid as one function of the argument arrays.

  Every point `n` carries a grid cell `(y_n, x_n)` and an object id.  A cell that no point lands on holds zero.  A cell
  that some point lands on holds the two-layer perceptron of the LAST such point (the scatter keeps the later of two
  updates to one cell): its input is the cell's positional encoding joined with the feature row of that point's object,
  `out = relu(fused · w1 + b1) · w2 + b2`.
-/
import Idealize.ShloMosaic.Lib.ValueIdx
import Idealize.ShloMosaic.PureOps.Ideal
import Idealize.ShloMosaic.PureOps.Ideal.Laws

noncomputable section

namespace Cert.Bev

open Idealize.ShloMosaic Idealize.ShloMosaic.ValueIdx
open scoped BigOperators

/-- The number of points. -/
abbrev NP : Nat := 1048576

abbrev SGrid : Shape := ⟨3, ![1024, 1024, 64]⟩
abbrev STab : Shape := ⟨2, ![4096, 64]⟩
abbrev SW1 : Shape := ⟨2, ![128, 128]⟩
abbrev SB1 : Shape := ⟨1, ![128]⟩
abbrev SW2 : Shape := ⟨2, ![128, 64]⟩
abbrev SB2 : Shape := ⟨1, ![64]⟩
abbrev SPts : Shape := ⟨2, ![1048576, 2]⟩
abbrev SIds : Shape := ⟨1, ![1048576]⟩
abbrev SCell : Shape := ⟨2, ![1024, 1024]⟩

/-- The positional features (64) joined with the object features (64): the perceptron's 128 inputs. -/
def fused (p o : Fin 64 → EReal) (k : Fin 128) : EReal :=
  if h : k.val < 64 then p ⟨k.val, h⟩ else o ⟨k.val - 64, by have := k.isLt; omega⟩

/-- Hidden unit `j`: the rectified affine form of the inputs. -/
def hidden (w1 : SW1.Idx → EReal) (b1 : SB1.Idx → EReal) (f : Fin 128 → EReal) (j : Fin 128) : EReal :=
  max (∑ k : Fin 128, f k * w1 (ix2 k j) + b1 (ix1 j)) 0

/-- Output feature `d` of the perceptron on the inputs `f`. -/
def mlp (w1 : SW1.Idx → EReal) (b1 : SB1.Idx → EReal) (w2 : SW2.Idx → EReal) (b2 : SB2.Idx → EReal)
    (f : Fin 128 → EReal) (d : Fin 64) : EReal :=
  ∑ j : Fin 128, hidden w1 b1 f j * w2 (ix2 j d) + b2 (ix1 d)

/-- The points that land on cell `(y, x)`. -/
def hits (g : SPts.Idx → BitVec 32) (y x : Nat) : Finset (Fin NP) :=
  Finset.univ.filter fun n : Fin NP => (g (ix2 n (0 : Fin 2))).toNat = y ∧ (g (ix2 n (1 : Fin 2))).toNat = x

/-- The last point on cell `(y, x)`, if any. -/
def lastOn (g : SPts.Idx → BitVec 32) (y x : Nat) : Option (Fin NP) :=
  @dite _ (hits g y x).Nonempty (Classical.propDecidable _) (fun h => some ((hits g y x).max' h)) (fun _ => none)

/-- The table row an object id names (ids are in `[0, 4096)` on the domain of the claim). -/
def rowOf (w : BitVec 32) : Fin 4096 := ⟨w.toNat % 4096, Nat.mod_lt _ (by decide)⟩

/-- The object id kept at cell `(y, x)`: the last point's, zero on an empty cell. -/
def winnerAt (g : SPts.Idx → BitVec 32) (ids : SIds.Idx → BitVec 32) (y x : Nat) : BitVec 32 :=
  match lastOn g y x with
  | some n => ids (ix1 n)
  | none => 0#32

/-- One on a cell some point lands on, zero elsewhere. -/
def maskAt (g : SPts.Idx → BitVec 32) (y x : Nat) : EReal :=
  match lastOn g y x with
  | some _ => 1
  | none => 0

/-- The grid's entry `(y, x, d)`. -/
def bevAt (pos : SGrid.Idx → EReal) (tab : STab.Idx → EReal) (w1 : SW1.Idx → EReal) (b1 : SB1.Idx → EReal)
    (w2 : SW2.Idx → EReal) (b2 : SB2.Idx → EReal) (g : SPts.Idx → BitVec 32) (ids : SIds.Idx → BitVec 32)
    (y x : Fin 1024) (d : Fin 64) : EReal :=
  match lastOn g y.val x.val with
  | some n => mlp w1 b1 w2 b2 (fused (fun e => pos (ix3 y x e)) (fun e => tab (ix2 (rowOf (ids (ix1 n))) e))) d
  | none => 0

/-- The whole grid. -/
def bev (pos : SGrid.Idx → EReal) (tab : STab.Idx → EReal) (w1 : SW1.Idx → EReal) (b1 : SB1.Idx → EReal)
    (w2 : SW2.Idx → EReal) (b2 : SB2.Idx → EReal) (g : SPts.Idx → BitVec 32) (ids : SIds.Idx → BitVec 32) :
    SGrid.Idx → EReal :=
  fun i => bevAt pos tab w1 b1 w2 b2 g ids (i 0) (i 1) (i 2)

/-- Every grid coordinate of every point is inside the grid. -/
def GridInRange (g : SPts.Idx → BitVec 32) : Prop := ∀ (n : Fin NP) (c : Fin 2), (g (ix2 n c)).toNat < 1024

/-- Every object id names a row of the table. -/
def IdsInRange (ids : SIds.Idx → BitVec 32) : Prop := ∀ n : Fin NP, (ids (ix1 n)).toNat < 4096

/-- A point is on a cell exactly when it is in the cell's set of hits. -/
theorem mem_hits (g : SPts.Idx → BitVec 32) (y x : Nat) (n : Fin NP) :
    n ∈ hits g y x ↔ (g (ix2 n (0 : Fin 2))).toNat = y ∧ (g (ix2 n (1 : Fin 2))).toNat = x := by
  unfold hits; simp

/-- The last point on a cell is on it, and no later point is. -/
theorem lastOn_some {g : SPts.Idx → BitVec 32} {y x : Nat} {n : Fin NP} (h : lastOn g y x = some n) :
    n ∈ hits g y x ∧ ∀ n' : Fin NP, n < n' → n' ∉ hits g y x := by
  unfold lastOn at h
  by_cases hne : (hits g y x).Nonempty
  · rw [dif_pos hne] at h
    have hn : (hits g y x).max' hne = n := Option.some.inj h
    subst hn
    refine ⟨Finset.max'_mem _ _, fun n' hlt hmem => ?_⟩
    exact absurd (Finset.le_max' _ _ hmem) (not_le.mpr hlt)
  · rw [dif_neg hne] at h
    exact absurd h (by simp)

/-- No point is on a cell that has no last point. -/
theorem lastOn_none {g : SPts.Idx → BitVec 32} {y x : Nat} (h : lastOn g y x = none) :
    ∀ n : Fin NP, n ∉ hits g y x := by
  unfold lastOn at h
  by_cases hne : (hits g y x).Nonempty
  · rw [dif_pos hne] at h
    exact absurd h (by simp)
  · intro n hn
    exact hne ⟨n, hn⟩

/-- The kept id on a cell whose last point is `n`. -/
theorem winnerAt_of_some {g : SPts.Idx → BitVec 32} {ids : SIds.Idx → BitVec 32} {y x : Nat} {n : Fin NP}
    (h : lastOn g y x = some n) : winnerAt g ids y x = ids (ix1 n) := by
  unfold winnerAt; rw [h]

/-- The kept id on an empty cell. -/
theorem winnerAt_of_none {g : SPts.Idx → BitVec 32} {ids : SIds.Idx → BitVec 32} {y x : Nat}
    (h : lastOn g y x = none) : winnerAt g ids y x = 0#32 := by
  unfold winnerAt; rw [h]

/-- The mask on a cell some point is on. -/
theorem maskAt_of_some {g : SPts.Idx → BitVec 32} {y x : Nat} {n : Fin NP}
    (h : lastOn g y x = some n) : maskAt g y x = 1 := by
  unfold maskAt; rw [h]

/-- The mask on an empty cell. -/
theorem maskAt_of_none {g : SPts.Idx → BitVec 32} {y x : Nat}
    (h : lastOn g y x = none) : maskAt g y x = 0 := by
  unfold maskAt; rw [h]

/-- The grid's entry on a cell whose last point is `n`. -/
theorem bevAt_of_some {pos : SGrid.Idx → EReal} {tab : STab.Idx → EReal} {w1 : SW1.Idx → EReal} {b1 : SB1.Idx → EReal}
    {w2 : SW2.Idx → EReal} {b2 : SB2.Idx → EReal} {g : SPts.Idx → BitVec 32} {ids : SIds.Idx → BitVec 32}
    {y x : Fin 1024} {n : Fin NP} (d : Fin 64) (h : lastOn g y.val x.val = some n) :
    bevAt pos tab w1 b1 w2 b2 g ids y x d
      = mlp w1 b1 w2 b2 (fused (fun e => pos (ix3 y x e)) (fun e => tab (ix2 (rowOf (ids (ix1 n))) e))) d := by
  unfold bevAt; rw [h]

/-- The grid's entry on an empty cell. -/
theorem bevAt_of_none {pos : SGrid.Idx → EReal} {tab : STab.Idx → EReal} {w1 : SW1.Idx → EReal} {b1 : SB1.Idx → EReal}
    {w2 : SW2.Idx → EReal} {b2 : SB2.Idx → EReal} {g : SPts.Idx → BitVec 32} {ids : SIds.Idx → BitVec 32}
    {y x : Fin 1024} (d : Fin 64) (h : lastOn g y.val x.val = none) :
    bevAt pos tab w1 b1 w2 b2 g ids y x d = 0 := by
  unfold bevAt; rw [h]

end Cert.Bev

end
-- ==== Proof.PreRange.lean ====
/-
  The index ranges the precondition states: every grid coordinate of every point lies in `[0, 1024)` and every object id
  in `[0, 4096)`.
-/
import proofs.«401134_j85289460564572_1_alg».proof.Proof.Gen.Pre_finite_inputs
import proofs.«401134_j85289460564572_1_alg».proof.Proof.Spec
import Idealize.ShloMosaic.Lib.ReduceAll
import Idealize.ShloMosaic.Lib.StableHlo.Predicate

noncomputable section

namespace Cert.Pre_finite_inputs.Range

open Idealize.ShloMosaic Idealize.ShloMosaic.ValueIdx Cert.Bev Cert.Pre_finite_inputs

variable [Cert.Pre_finite_inputs.Facts]

/-- A 32-bit word whose signed reading lies in `[0, K)`, for `K` below 2³¹, has its unsigned reading below `K`:
    the signed comparisons `0 ≤ a` and `a < K` both hold exactly when their conjunction is the word 1. -/
theorem toNat_lt_of_signed_range (a : BitVec 32) (K : Nat) (hK : K < 2 ^ 31)
    (h : IntOp.andi (IntOp.cmpi .sge a 0#32) (IntOp.cmpi .slt a (BitVec.ofNat 32 K)) = 1#1) : a.toNat < K := by
  obtain ⟨h1, h2⟩ := IntOp.andi_eq_one.1 h
  rw [IntOp.cmpi_sge] at h1
  rw [IntOp.cmpi_slt] at h2
  rw [show (0#32 : BitVec 32).toInt = 0 from by decide] at h1
  rw [StableHlo.Predicate.toInt_ofNat_small K hK] at h2
  -- a nonnegative signed reading means the top bit is clear, so the two readings agree
  have h3 : 2 * a.toNat < 2 ^ 32 := BitVec.toInt_pos_iff.1 h1
  rw [StableHlo.Predicate.toInt_eq_toNat_of_lt (by omega)] at h2
  omega

/-- Where the precondition holds, the points' coordinates and the object ids are in range. -/
theorem ranges_of_pre (a0 : FVec Ideal S1024x1024x64 .f32) (a1 : FVec Ideal S4096x64 .f32) (a2 : FVec Ideal S128x128 .f32)
    (a3 : FVec Ideal S128 .f32) (a4 : FVec Ideal S128x64 .f32) (a5 : FVec Ideal S64 .f32)
    (g : IVec S1048576x2 32) (ids : IVec S1048576 32)
    (h : Cert.Pre_finite_inputs.fn (F := Ideal) a0 a1 a2 a3 a4 a5 g ids = fun _ => 1#1) :
    GridInRange g ∧ IdsInRange ids := by
  -- the precondition's one entry is a conjunction of eight all-reductions; the last two speak of the integers
  have h0 := congrFun h ValueIdx.ix0
  dsimp only [fn, fn_part1, fn_part2] at h0
  haveI hsub : Subsingleton S_.Idx := ⟨fun a b => funext fun d => d.elim0⟩
  obtain ⟨hA, hIds⟩ := IntOp.andi_eq_one.1 h0
  obtain ⟨_, hGrid⟩ := IntOp.andi_eq_one.1 hA
  refine ⟨fun n c => ?_, fun n => ?_⟩
  · -- the all-reduction over the points' coordinates, read at coordinate `c` of point `n`
    have e := Host.reduce_andi_all _ _ _ _ _ hGrid (ix2 n c)
    exact toNat_lt_of_signed_range _ 1024 (by norm_num) e
  · -- the all-reduction over the object ids, read at point `n`
    have e := Host.reduce_andi_all _ _ _ _ _ hIds (ix1 n)
    exact toNat_lt_of_signed_range _ 4096 (by norm_num) e

end Cert.Pre_finite_inputs.Range

end
-- ==== Proof.LibScatterSet.lean ====
/-
  A `set` scatter read at an entry.

  `x.at[idx].set(v)` lowers to `stablehlo.scatter` whose body returns the update.  The updates are applied one after
  the other in row-major order of the update index, each replacing the entry it lands on; an update that lands outside
  the operand is dropped.  So an entry that no update lands on keeps the operand's value, and an entry that some update
  lands on ends at the LAST such update, in row-major order.
-/
import Idealize.ShloMosaic.PureOps
import Idealize.ShloMosaic.Lib.ValueIdx

noncomputable section

namespace Cert.LibScatterSet

open Idealize.ShloMosaic

variable {α : Type} {s si u : Shape} {w : Nat}

/-- One step of the scatter: update number `n` replaces the entry it lands on, if any. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The scatter is the fold of its steps over the update numbers in order. -/
theorem scatter_eq_foldl (d : ScatterDims s si u) (x : s.Idx → α) (idx : IVec si w) (upd : u.Idx → α) :
    Host.scatter d (fun _ b => b) x idx upd = (List.finRange u.numel).foldl (step d idx upd) x := rfl

/-- A step that does not land on `i` leaves entry `i` alone. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  generalize d.resultIdx? (u.rowMajor.symm n) idx = o at h
  cases o with
  | none => rfl
  | some i0 =>
    show (if i = i0 then upd (u.rowMajor.symm n) else r i) = r i
    exact if_neg (fun e => h (by rw [e]))

/-- A step that lands on `i` leaves the update there. -/
theorem step_of_eq (d : ScatterDims s si u) (idx : IVec si w) (upd : u.Idx → α) (r : s.Idx → α) (n : Fin u.numel)
    (i : s.Idx) (h : d.resultIdx? (u.rowMajor.symm n) idx = some i) : step d idx upd r n i = upd (u.rowMajor.symm n) := by
  unfold step
  generalize d.resultIdx? (u.rowMajor.symm n) idx = o at h
  cases o with
  | none => exact absurd h (by simp)
  | some i0 =>
    show (if i = i0 then upd (u.rowMajor.symm n) else r i) = upd (u.rowMajor.symm n)
    exact if_pos (Option.some.inj h).symm

/-- Steps none of which lands on `i` leave entry `i` alone. -/
theorem foldl_miss (d : ScatterDims s si u) (idx : IVec si w) (upd : u.Idx → α) (i : s.Idx) :
    ∀ (L : List (Fin u.numel)) (r : s.Idx → α), (∀ n ∈ L, d.resultIdx? (u.rowMajor.symm n) idx ≠ some i) →
      L.foldl (step d idx upd) r i = r i := by
  intro L
  induction L with
  | nil => intro r _; rfl
  | cons a L ih =>
    intro r h
    rw [List.foldl_cons, ih _ (fun n hn => h n (List.mem_cons_of_mem _ hn))]
    exact step_of_ne d idx upd r a i (h a List.mem_cons_self)

/-- Over an increasing list of update numbers, entry `i` ends at the last update that lands on it. -/
theorem foldl_hit (d : ScatterDims s si u) (idx : IVec si w) (upd : u.Idx → α) (i : s.Idx) (n : Fin u.numel)
    (hn : d.resultIdx? (u.rowMajor.symm n) idx = some i) :
    ∀ (L : List (Fin u.numel)) (r : s.Idx → α), L.Pairwise (· < ·) → n ∈ L →
      (∀ n' ∈ L, n < n' → d.resultIdx? (u.rowMajor.symm n') idx ≠ some i) →
      L.foldl (step d idx upd) r i = upd (u.rowMajor.symm n) := by
  intro L
  induction L with
  | nil => intro r _ hmem; exact absurd hmem List.not_mem_nil
  | cons a L ih =>
    intro r hs hmem hlast
    rw [List.foldl_cons]
    have hs' := List.pairwise_cons.mp hs
    by_cases e : a = n
    · subst e
      rw [foldl_miss d idx upd i L _ (fun n' hn' => hlast n' (List.mem_cons_of_mem _ hn') (hs'.1 n' hn'))]
      exact step_of_eq d idx upd r a i hn
    · have hmem' : n ∈ L := by
        rcases List.mem_cons.mp hmem with h | h
        · exact absurd h.symm e
        · exact h
      exact ih _ hs'.2 hmem' (fun n' hn' => hlast n' (List.mem_cons_of_mem _ hn'))

/-- An entry no update lands on keeps the operand's value. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_miss d idx upd i _ x (fun n _ => h _)

/-- An entry ends at the update that lands on it last in row-major order. -/
theorem scatter_set_hit (d : ScatterDims s si u) (x : s.Idx → α) (idx : IVec si w) (upd : u.Idx → α) (i : s.Idx)
    (j : u.Idx) (hj : d.resultIdx? j idx = some i)
    (hlast : ∀ j' : u.Idx, (u.rowMajor j).val < (u.rowMajor j').val → d.resultIdx? j' idx ≠ some i) :
    Host.scatter d (fun _ b => b) x idx upd i = upd j := by
  rw [scatter_eq_foldl]
  have hsymm : u.rowMajor.symm (u.rowMajor j) = j := u.rowMajor.symm_apply_apply j
  have hn : d.resultIdx? (u.rowMajor.symm (u.rowMajor j)) idx = some i := by rw [hsymm]; exact hj
  rw [foldl_hit d idx upd i (u.rowMajor j) hn (List.finRange u.numel) x (List.pairwise_lt_finRange _)
    (List.mem_finRange _) (fun n' _ hlt => hlast (u.rowMajor.symm n') (by
      rw [u.rowMajor.apply_symm_apply]; exact hlt))]
  rw [hsymm]

end Cert.LibScatterSet

end
-- ==== Proof.LibRowScatter.lean ====
/-
  Row scatter-adds and a row gather read at an entry.

  `segment_sum(v, ids)` and `x.at[ids].add(v)` along the LEADING axis lower to `stablehlo.scatter` with an `add` body, the
  scatter indices reshaped to `[R, 1]` (index vector on axis 1), the leading operand axis inserted and named by the
  index map, every other operand axis a window axis taken whole.  Update row `r` lands on operand row `ids[r, 0]`, read
  as a SIGNED integer and NOT clamped: a row whose index is negative or ≥ N is dropped.  So entry `n` (or `(n, b)`) of the
  result is the operand's entry plus the sum of the update entries of the rows `r` with `ids[r, 0] = n`.
  `x[ids]` for a rank-one operand lowers to `stablehlo.gather` with the same `[R, 1]` start indices: result entry `r` is
  operand entry `ids[r, 0]` read signed and clamped into `[0, N − 1]`.
-/
import Idealize.ShloMosaic.Lib.ValueIdx
import Idealize.ShloMosaic.PureOps.Ideal
import Idealize.ShloMosaic.PureOps.Ideal.Laws
import Idealize.ShloMosaic.PureOps.Contract

noncomputable section

namespace Cert.LibRowScatter

open Idealize.ShloMosaic Idealize.ShloMosaic.ValueIdx
open scoped BigOperators

/-- The dimension numbers of a leading-axis scatter of `[R]` updates into `[N]` by scatter indices `[R, 1]`. -/
abbrev rowSDims1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a leading-axis scatter of `[R, B]` update rows into `[N, B]` by scatter indices `[R, 1]`. -/
abbrev rowSDims2 (N B R : Nat) (wf : ScatterDims.WF ⟨2, ![N, B]⟩ ⟨2, ![R, 1]⟩ ⟨2, ![R, B]⟩ [1] [0] [0] 1) :
    ScatterDims ⟨2, ![N, B]⟩ ⟨2, ![R, 1]⟩ ⟨2, ![R, B]⟩ where
  updateWindowDims := [1]
  insertedWindowDims := [0]
  scatterDimsToOperandDims := [0]
  indexVectorDim := 1
  wf := wf

/-- The rows of the updates that land on operand row `n`: those whose index, read signed, is `n`. -/
abbrev hits {R w : Nat} (idx : IVec ⟨2, ![R, 1]⟩ w) (n : Nat) : Finset (Fin R) :=
  Finset.univ.filter fun r : Fin R => (idx (ix2 r (0 : Fin 1))).toInt = (n : Int)

/-- On the operand's one axis the window of update row `r` starts at the row's index, read signed. -/
theorem rowSDims1_start {N R w : Nat}
    (wf : ScatterDims.WF ⟨1, ![N]⟩ ⟨2, ![R, 1]⟩ ⟨1, ![R]⟩ [] [0] [0] 1)
    (idx : IVec ⟨2, ![R, 1]⟩ w) (r : Fin R) :
    (rowSDims1 N R wf).start (ix1 r) idx ⟨0, Nat.one_pos⟩ = (idx (ix2 r (0 : Fin 1))).toInt := by
  unfold ScatterDims.start
  rw [dif_pos (show (⟨0, Nat.one_pos⟩ : Fin 1) ∈ (rowSDims1 N R wf).scatterDimsToOperandDims from List.mem_singleton.mpr rfl)]
  have hsi : (rowSDims1 N R wf).siIdx (ix1 r) ⟨List.idxOf (⟨0, Nat.one_pos⟩ : Fin 1) (rowSDims1 N R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The operand's one axis is inserted: an update row has no window coordinate on it. -/
theorem rowSDims1_window {N R : Nat}
    (wf : ScatterDims.WF ⟨1, ![N]⟩ ⟨2, ![R, 1]⟩ ⟨1, ![R]⟩ [] [0] [0] 1) (r : Fin R) :
    (rowSDims1 N R wf).window (ix1 r) ⟨0, Nat.one_pos⟩ = 0 := by
  unfold ScatterDims.window
  rw [dif_neg]
  intro h
  simp [ScatterDims.sKept, Shape.kept] at h

/-- Update row `r` lands at its index read signed: start plus window coordinate on the operand's one axis. -/
theorem rowSDims1_land {N R w : Nat}
    (wf : ScatterDims.WF ⟨1, ![N]⟩ ⟨2, ![R, 1]⟩ ⟨1, ![R]⟩ [] [0] [0] 1)
    (idx : IVec ⟨2, ![R, 1]⟩ w) (r : Fin R) (a : Fin 1) :
    (rowSDims1 N R wf).start (ix1 r) idx a + ((rowSDims1 N R wf).window (ix1 r) a : Int)
      = (idx (ix2 r (0 : Fin 1))).toInt := by
  match a with
  | ⟨0, _⟩ => rw [rowSDims1_start, rowSDims1_window]; simp

/-- Update row `r` lands on operand entry `n` exactly when its index, read signed, is `n`: a negative index or one
    past the operand's end lands nowhere. -/
theorem rowSDims1_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (rowSDims1 N R wf).resultIdx? (ix1 r) idx = some (ix1 n)
      ↔ (idx (ix2 r (0 : Fin 1))).toInt = (n.val : Int) := by
  unfold ScatterDims.resultIdx?
  constructor
  · intro h
    split at h
    · have h0 := congrArg Fin.val (congrFun (Option.some.inj h) ⟨0, Nat.one_pos⟩)
      rename_i hc
      have hc0 := (hc ⟨0, Nat.one_pos⟩).1
      rw [rowSDims1_land] at hc0
      have h1 : ((rowSDims1 N R wf).start (ix1 r) idx ⟨0, Nat.one_pos⟩
          + ((rowSDims1 N R wf).window (ix1 r) ⟨0, Nat.one_pos⟩ : Int)).toNat = n.val := h0
      rw [rowSDims1_land] at h1
      omega
    · exact absurd h (by simp)
  · intro h
    have hc : ∀ a : Fin 1, 0 ≤ (rowSDims1 N R wf).start (ix1 r) idx a + ((rowSDims1 N R wf).window (ix1 r) a : Int)
        ∧ (rowSDims1 N R wf).start (ix1 r) idx a + ((rowSDims1 N R wf).window (ix1 r) a : Int)
          < (((⟨1, ![N]⟩ : Shape).size a : Nat) : Int) := by
      intro a
      rw [rowSDims1_land, h]
      match a with
      | ⟨0, _⟩ =>
        refine ⟨by omega, ?_⟩
        show (n.val : Int) < ((N : Nat) : Int)
        have := n.isLt
        omega
    rw [dif_pos hc]
    congr 1
    funext a
    match a with
    | ⟨0, _⟩ =>
      refine Fin.ext ?_
      show ((rowSDims1 N R wf).start (ix1 r) idx ⟨0, Nat.one_pos⟩
          + ((rowSDims1 N R wf).window (ix1 r) ⟨0, Nat.one_pos⟩ : Int)).toNat = n.val
      rw [rowSDims1_land, h]
      omega

/-- Entry `n` of the accumulating row scatter into `[N]`: the operand's entry plus the updates of the rows that land on it. -/
theorem rowScatterAdd1_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (rowSDims1 N R wf) x idx upd (ix1 n)
      = x (ix1 n) + ∑ r ∈ hits idx n.val, upd (ix1 r) := by
  unfold Host.scatterAdd
  rw [Ideal.hostScatterAdd_def]
  unfold Ideal.hostScatterAdd
  congr 1
  refine Finset.sum_nbij' (fun j => (j 0 : Fin R)) (fun r => ix1 r) ?_ ?_ ?_ ?_ ?_
  · intro j hj
    have h := (Finset.mem_filter.mp hj).2
    rw [eq_ix1 j] at h
    exact Finset.mem_filter.mpr ⟨Finset.mem_univ _, (rowSDims1_resultIdx_iff wf idx (j 0) n).mp h⟩
  · intro r hr
    exact Finset.mem_filter.mpr ⟨Finset.mem_univ _, (rowSDims1_resultIdx_iff wf idx r n).mpr (Finset.mem_filter.mp hr).2⟩
  · intro j _
    exact (eq_ix1 j).symm
  · intro r _
    rfl
  · intro j _
    exact congrArg upd (eq_ix1 j)

/-- On the row axis the window of update entry `(r, b')` starts at row `r`'s index, read signed. -/
theorem rowSDims2_start_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩ = (idx (ix2 r (0 : Fin 1))).toInt := by
  unfold ScatterDims.start
  rw [dif_pos (show (⟨0, Nat.zero_lt_two⟩ : Fin 2) ∈ (rowSDims2 N B R wf).scatterDimsToOperandDims from List.mem_singleton.mpr rfl)]
  have hsi : (rowSDims2 N B R wf).siIdx (ix2 r b') ⟨List.idxOf (⟨0, Nat.zero_lt_two⟩ : Fin 2) (rowSDims2 N B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The column axis is not named by the index map: the window starts at `0` there. -/
theorem rowSDims2_start_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩ = 0 := by
  unfold ScatterDims.start
  rw [dif_neg (fun h => absurd (congrArg Fin.val (List.mem_singleton.mp h)) (Nat.succ_ne_zero _))]

/-- The row axis is inserted: an update entry has no window coordinate on it. -/
theorem rowSDims2_window_row {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨0, Nat.zero_lt_two⟩ = 0 := by
  unfold ScatterDims.window
  rw [dif_neg]
  intro h
  simp [ScatterDims.sKept, Shape.kept] at h

/-- On the column axis the window coordinate of update entry `(r, b')` is `b'`. -/
theorem rowSDims2_window_col {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨1, Nat.one_lt_two⟩ = b'.val := by
  unfold ScatterDims.window
  rw [dif_pos (show (⟨1, Nat.one_lt_two⟩ : Fin 2) ∈ (rowSDims2 N B R wf).sKept by simp [ScatterDims.sKept, Shape.kept])]
  rfl

/-- Update entry `(r, b')` lands on the row its index names, read signed. -/
theorem rowSDims2_land_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩
        + ((rowSDims2 N B R wf).window (ix2 r b') ⟨0, Nat.zero_lt_two⟩ : Int)
      = (idx (ix2 r (0 : Fin 1))).toInt := by
  rw [rowSDims2_start_row, rowSDims2_window_row]; simp

/-- Update entry `(r, b')` lands on column `b'`. -/
theorem rowSDims2_land_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩
        + ((rowSDims2 N B R wf).window (ix2 r b') ⟨1, Nat.one_lt_two⟩ : Int)
      = (b'.val : Int) := by
  rw [rowSDims2_start_col, rowSDims2_window_col]; simp

/-- Update entry `(r, b')` lands on operand entry `(n, b)` exactly when row `r`'s index, read signed, is `n` and
    `b' = b`. -/
theorem rowSDims2_resultIdx_iff {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) (n : Fin N) (b : Fin B) :
    (rowSDims2 N B R wf).resultIdx? (ix2 r b') idx = some (ix2 n b)
      ↔ (idx (ix2 r (0 : Fin 1))).toInt = (n.val : Int) ∧ b' = b := by
  unfold ScatterDims.resultIdx?
  constructor
  · intro h
    split at h
    · rename_i hc
      have h0 := congrArg Fin.val (congrFun (Option.some.inj h) ⟨0, Nat.zero_lt_two⟩)
      have h1 := congrArg Fin.val (congrFun (Option.some.inj h) ⟨1, Nat.one_lt_two⟩)
      have hc0 := (hc ⟨0, Nat.zero_lt_two⟩).1
      rw [rowSDims2_land_row] at hc0
      have e0 : ((rowSDims2 N B R wf).start (ix2 r b') idx ⟨0, Nat.zero_lt_two⟩
          + ((rowSDims2 N B R wf).window (ix2 r b') ⟨0, Nat.zero_lt_two⟩ : Int)).toNat = n.val := h0
      have e1 : ((rowSDims2 N B R wf).start (ix2 r b') idx ⟨1, Nat.one_lt_two⟩
          + ((rowSDims2 N B R wf).window (ix2 r b') ⟨1, Nat.one_lt_two⟩ : Int)).toNat = b.val := h1
      rw [rowSDims2_land_row] at e0
      rw [rowSDims2_land_col] at e1
      exact ⟨by omega, Fin.ext (by omega)⟩
    · exact absurd h (by simp)
  · rintro ⟨h, rfl⟩
    have hc : ∀ a : Fin 2, 0 ≤ (rowSDims2 N B R wf).start (ix2 r b') idx a + ((rowSDims2 N B R wf).window (ix2 r b') a : Int)
        ∧ (rowSDims2 N B R wf).start (ix2 r b') idx a + ((rowSDims2 N B R wf).window (ix2 r b') a : Int)
          < (((⟨2, ![N, B]⟩ : Shape).size a : Nat) : Int) := by
      intro a
      match a with
      | ⟨0, _⟩ =>
        rw [rowSDims2_land_row, h]
        refine ⟨by omega, ?_⟩
        show (n.val : Int) < ((N : Nat) : Int)
        have := n.isLt
        omega
      | ⟨1, _⟩ =>
        rw [rowSDims2_land_col]
        refine ⟨by omega, ?_⟩
        show (b'.val : Int) < ((B : Nat) : Int)
        have := b'.isLt
        omega
    rw [dif_pos hc]
    congr 1
    funext a
    match a with
    | ⟨0, _⟩ =>
      refine Fin.ext ?_
      show ((rowSDims2 N B R wf).start (ix2 r b') idx ⟨0, Nat.zero_lt_two⟩
          + ((rowSDims2 N B R wf).window (ix2 r b') ⟨0, Nat.zero_lt_two⟩ : Int)).toNat = n.val
      rw [rowSDims2_land_row, h]
      omega
    | ⟨1, _⟩ =>
      refine Fin.ext ?_
      show ((rowSDims2 N B R wf).start (ix2 r b') idx ⟨1, Nat.one_lt_two⟩
          + ((rowSDims2 N B R wf).window (ix2 r b') ⟨1, Nat.one_lt_two⟩ : Int)).toNat = b'.val
      rw [rowSDims2_land_col]
      omega

/-- Entry `(n, b)` of the accumulating row scatter into `[N, B]`: the operand's entry plus column `b` of the update rows
    that land on row `n`. -/
theorem rowScatterAdd2_apply {N B R w : Nat} {φ : FTy}
    (wf : ScatterDims.WF ⟨2, ![N, B]⟩ ⟨2, ![R, 1]⟩ ⟨2, ![R, B]⟩ [1] [0] [0] 1)
    (x : FVec Ideal ⟨2, ![N, B]⟩ φ) (idx : IVec ⟨2, ![R, 1]⟩ w) (upd : FVec Ideal ⟨2, ![R, B]⟩ φ) (n : Fin N) (b : Fin B) :
    Host.scatterAdd (rowSDims2 N B R wf) x idx upd (ix2 n b)
      = x (ix2 n b) + ∑ r ∈ hits idx n.val, upd (ix2 r b) := by
  unfold Host.scatterAdd
  rw [Ideal.hostScatterAdd_def]
  unfold Ideal.hostScatterAdd
  congr 1
  have hland : ∀ j : (⟨2, ![R, B]⟩ : Shape).Idx,
      (rowSDims2 N B R wf).resultIdx? j idx = some (ix2 n b) →
        (idx (ix2 (j 0) (0 : Fin 1))).toInt = (n.val : Int) ∧ j = ix2 (j 0) b := by
    intro j h
    rw [eq_ix2 j] at h
    obtain ⟨h0, h1⟩ := (rowSDims2_resultIdx_iff wf idx (j 0) (j 1) n b).mp h
    refine ⟨h0, ?_⟩
    rw [← h1]
    exact eq_ix2 j
  refine Finset.sum_nbij' (fun j => (j 0 : Fin R)) (fun r => ix2 r b) ?_ ?_ ?_ ?_ ?_
  · intro j hj
    exact Finset.mem_filter.mpr ⟨Finset.mem_univ _, (hland j (Finset.mem_filter.mp hj).2).1⟩
  · intro r hr
    exact Finset.mem_filter.mpr ⟨Finset.mem_univ _,
      (rowSDims2_resultIdx_iff wf idx r b n b).mpr ⟨(Finset.mem_filter.mp hr).2, rfl⟩⟩
  · intro j hj
    exact (hland j (Finset.mem_filter.mp hj).2).2.symm
  · intro r _
    rfl
  · intro j hj
    exact congrArg upd (hland j (Finset.mem_filter.mp hj).2).2

/-- The dimension numbers of a gather out of `[N]` by start indices `[R, 1]`. -/
abbrev rowDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result entry `r` of the gather out of `[N]` is operand entry `clamp idx[r, 0]`. -/
theorem rowGather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowDims1 N R wf) x idx (ix1 r)
      = x (ix1 ⟨min (idx (ix2 r (0 : Fin 1))).toInt.toNat (N - 1), by omega⟩) := by
  unfold Host.gather
  congr 1
  funext ax
  refine Fin.ext ?_
  show (rowDims1 N R wf).start (ix1 r) idx ax + (rowDims1 N R wf).batchCoord (ix1 r) ax
    + (rowDims1 N R wf).offCoord (ix1 r) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 1) ∈ (rowDims1 N R wf).startIndexMap from List.mem_singleton.mpr rfl)]
    have hsi : (rowDims1 N R wf).siIdx (ix1 r) ⟨List.idxOf (⟨0, by decide⟩ : Fin 1) (rowDims1 N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.LibRowScatter

end
-- ==== Proof.KernelHost.lean ====
/-
  What the host operations leave for the pallas_call: the object id kept at each grid cell, the cell's occupancy mask,
  and the table and weights (cast to bf16, which is the identity on the extended reals).
-/
import proofs.«401134_j85289460564572_1_alg».proof.Proof.Gen.KernelIdeal.Frame
import proofs.«401134_j85289460564572_1_alg».proof.Proof.Spec
import proofs.«401134_j85289460564572_1_alg».proof.Proof.LibScatterSet
import proofs.«401134_j85289460564572_1_alg».proof.Proof.LibRowScatter
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.HostValue

open Cert.KernelIdeal Cert.KernelIdeal.Gen Idealize.ShloMosaic Idealize.ShloMosaic.TcCoe Idealize.SL.Sem
open Idealize.ShloMosaic.ValueIdx Cert.Bev

/-! ## The scatter indices: the flat cell number of every point -/

/-- Column `k` of the points' coordinates as a vector over the points. -/
theorem col0_apply (g : SPts.Idx → BitVec 32) (n : Fin 1048576) :
    shapeCast S1048576 (extractStridedSlice S1048576x1 ![0, 0] g slices_S1048576x2_S1048576x1_0_0)
      shapeCasts_S1048576x1_S1048576 (ix1 n) = g (ix2 n (0 : Fin 2)) := by
  refine (shapeCast_apply _ _ (ix1 n) (ix2 n (0 : Fin 1)) ?_).trans ?_
  · rw [Shape.rowMajor_val_two, Shape.rowMajor_val_one]
    show n.val * 1 + 0 = n.val
    omega
  · refine extractStridedSlice_apply _ g _ (ix2 n (0 : Fin 1)) (ix2 n (0 : Fin 2)) ?_
    intro a
    match a with
    | ⟨0, _⟩ => show n.val = 0 + n.val; omega
    | ⟨1, _⟩ => show 0 = 0 + 0; rfl

theorem col1_apply (g : SPts.Idx → BitVec 32) (n : Fin 1048576) :
    shapeCast S1048576 (extractStridedSlice S1048576x1 ![0, 1] g slices_S1048576x2_S1048576x1_0_1)
      shapeCasts_S1048576x1_S1048576 (ix1 n) = g (ix2 n (1 : Fin 2)) := by
  refine (shapeCast_apply _ _ (ix1 n) (ix2 n (0 : Fin 1)) ?_).trans ?_
  · rw [Shape.rowMajor_val_two, Shape.rowMajor_val_one]
    show n.val * 1 + 0 = n.val
    omega
  · refine extractStridedSlice_apply _ g _ (ix2 n (0 : Fin 1)) (ix2 n (1 : Fin 2)) ?_
    intro a
    match a with
    | ⟨0, _⟩ => show n.val = 0 + n.val; omega
    | ⟨1, _⟩ => show 1 = 1 + 0; rfl

/-- The flat cell number `y * 1024 + x` of every point, as 32-bit words. -/
def flatPos (g : SPts.Idx → BitVec 32) : IVec S1048576 32 :=
  addi
    (muli
      (shapeCast S1048576 (extractStridedSlice S1048576x1 ![0, 0] g slices_S1048576x2_S1048576x1_0_0)
        shapeCasts_S1048576x1_S1048576)
      (broadcastInDim S1048576 ![] bcast_S_S1048576 (constantI S_ 32 1024#32)))
    (shapeCast S1048576 (extractStridedSlice S1048576x1 ![0, 1] g slices_S1048576x2_S1048576x1_0_1)
      shapeCasts_S1048576x1_S1048576)

/-- The scatter indices: the flat cell numbers, a negative one moved up by the number of cells, as a column. -/
def flatIdx (g : SPts.Idx → BitVec 32) : IVec S1048576x1 32 :=
  broadcastInDim S1048576x1 ![0] bcast_S1048576_S1048576x1_0
    (select (cmpi .slt (flatPos g) (broadcastInDim S1048576 ![] bcast_S_S1048576 (constantI S_ 32 0#32)))
      (addi (flatPos g) (broadcastInDim S1048576 ![] bcast_S_S1048576 (constantI S_ 32 1048576#32)))
      (flatPos g))

/-- For coordinates inside the grid the flat cell number does not wrap, is not negative, and is kept. -/
theorem flat_word (a b : BitVec 32) (ha : a.toNat < 1024) (hb : b.toNat < 1024) :
    (Scalar.select (IntOp.cmpi .slt (IntOp.addi (IntOp.muli a 1024#32) b) 0#32)
      (IntOp.addi (IntOp.addi (IntOp.muli a 1024#32) b) 1048576#32)
      (IntOp.addi (IntOp.muli a 1024#32) b)).toInt = ((a.toNat * 1024 + b.toNat : Nat) : Int) := by
  have hP : (IntOp.addi (IntOp.muli a 1024#32) b).toNat = a.toNat * 1024 + b.toNat := by
    unfold IntOp.addi IntOp.muli
    rw [BitVec.toNat_add, BitVec.toNat_mul, BitVec.toNat_ofNat]
    omega
  have hI : (IntOp.addi (IntOp.muli a 1024#32) b).toInt = ((a.toNat * 1024 + b.toNat : Nat) : Int) := by
    rw [BitVec.toInt_eq_toNat_of_lt (by omega), hP]
  have hs : (IntOp.addi (IntOp.muli a 1024#32) b).slt 0#32 = false := by
    rw [Bool.eq_false_iff]
    intro h
    rw [BitVec.slt_iff_toInt_lt, hI] at h
    have h0 : (0#32 : BitVec 32).toInt = 0 := by decide
    omega
  have hc : IntOp.cmpi .slt (IntOp.addi (IntOp.muli a 1024#32) b) 0#32 = 0#1 := by
    unfold IntOp.cmpi
    show BitVec.ofBool ((IntOp.addi (IntOp.muli a 1024#32) b).slt 0#32) = 0#1
    rw [hs]; rfl
  rw [hc, select_zero, hI]

/-- The scatter index of point `n`, read signed, is its flat cell number. -/
theorem flatIdx_toInt (g : SPts.Idx → BitVec 32) (hg : GridInRange g) (n : Fin 1048576) :
    (flatIdx g (ix2 n (0 : Fin 1))).toInt
      = (((g (ix2 n (0 : Fin 2))).toNat * 1024 + (g (ix2 n (1 : Fin 2))).toNat : Nat) : Int) := by
  have e : flatIdx g (ix2 n (0 : Fin 1))
      = Scalar.select (IntOp.cmpi .slt (IntOp.addi (IntOp.muli (g (ix2 n (0 : Fin 2))) 1024#32) (g (ix2 n (1 : Fin 2)))) 0#32)
          (IntOp.addi (IntOp.addi (IntOp.muli (g (ix2 n (0 : Fin 2))) 1024#32) (g (ix2 n (1 : Fin 2)))) 1048576#32)
          (IntOp.addi (IntOp.muli (g (ix2 n (0 : Fin 2))) 1024#32) (g (ix2 n (1 : Fin 2)))) := by
    unfold flatIdx
    refine (broadcastInDim_apply _ _ _ (ix2 n (0 : Fin 1)) (ix1 n) ?_).trans ?_
    · intro a
      match a with
      | ⟨0, _⟩ =>
        show n.val = if (1048576 : Nat) = 1 then 0 else n.val
        rw [if_neg (by decide)]
    · have hp : flatPos g (ix1 n)
          = IntOp.addi (IntOp.muli (g (ix2 n (0 : Fin 2))) 1024#32) (g (ix2 n (1 : Fin 2))) := by
        unfold flatPos
        show IntOp.addi (IntOp.muli (shapeCast S1048576 (extractStridedSlice S1048576x1 ![0, 0] g slices_S1048576x2_S1048576x1_0_0)
              shapeCasts_S1048576x1_S1048576 (ix1 n)) 1024#32)
            (shapeCast S1048576 (extractStridedSlice S1048576x1 ![0, 1] g slices_S1048576x2_S1048576x1_0_1)
              shapeCasts_S1048576x1_S1048576 (ix1 n)) = _
        rw [col0_apply, col1_apply]
      show Scalar.select (IntOp.cmpi .slt (flatPos g (ix1 n)) 0#32) (IntOp.addi (flatPos g (ix1 n)) 1048576#32)
          (flatPos g (ix1 n)) = _
      rw [hp]
  rw [e]
  exact flat_word _ _ (hg n 0) (hg n 1)

/-! ## Which update lands on which cell -/

/-- The flat number of cell `(y, x)`. -/
def cellNo (y x : Fin 1024) : Fin 1048576 :=
  ⟨y.val * 1024 + x.val, by have := y.isLt; have := x.isLt; omega⟩

/-- Point `r`'s update lands on cell `(y, x)` exactly when the point is on that cell. -/
theorem lands_iff (g : SPts.Idx → BitVec 32) (hg : GridInRange g) (r : Fin 1048576) (y x : Fin 1024) :
    scatter_S1048576_S1048576x1_S1048576_n_0_0_1.resultIdx? (ix1 r) (flatIdx g) = some (ix1 (cellNo y x))
      ↔ r ∈ hits g y.val x.val := by
  have hd : scatter_S1048576_S1048576x1_S1048576_n_0_0_1
      = Cert.LibRowScatter.rowSDims1 1048576 1048576 scatter_S1048576_S1048576x1_S1048576_n_0_0_1_wf := rfl
  rw [hd, Cert.LibRowScatter.rowSDims1_resultIdx_iff, flatIdx_toInt g hg r, mem_hits]
  have h0 := hg r 0
  have h1 := hg r 1
  have hy := y.isLt
  have hx := x.isLt
  show (((g (ix2 r (0 : Fin 2))).toNat * 1024 + (g (ix2 r (1 : Fin 2))).toNat : Nat) : Int)
      = ((y.val * 1024 + x.val : Nat) : Int) ↔ _
  constructor
  · intro h
    constructor <;> omega
  · rintro ⟨ha, hb⟩
    rw [ha, hb]

/-- The grid of a `set` scatter by the flat cell numbers into a constant: cell `(y, x)` holds the update of the last
    point on it, and the constant where no point is. -/
theorem cellScatter_apply {α : Type} (g : SPts.Idx → BitVec 32) (hg : GridInRange g) (z : α)
    (upd : S1048576.Idx → α) (y x : Fin 1024) :
    shapeCast S1024x1024
        (Host.scatter scatter_S1048576_S1048576x1_S1048576_n_0_0_1 (fun _ b => b) (fun _ => z) (flatIdx g) upd)
        shapeCasts_S1048576_S1024x1024 (ix2 y x)
      = match lastOn g y.val x.val with
        | some n => upd (ix1 n)
        | none => z := by
  refine (shapeCast_apply _ _ (ix2 y x) (ix1 (cellNo y x)) ?_).trans ?_
  · rw [Shape.rowMajor_val_two, Shape.rowMajor_val_one]
    rfl
  · cases hl : lastOn g y.val x.val with
    | none =>
      show _ = z
      refine Cert.LibScatterSet.scatter_set_miss _ _ _ _ _ ?_
      intro j
      obtain ⟨r, rfl⟩ : ∃ r : Fin 1048576, j = ix1 r := ⟨j 0, eq_ix1 (n := 1048576) j⟩
      rw [Ne, lands_iff g hg]
      exact lastOn_none hl r
    | some n =>
      show _ = upd (ix1 n)
      obtain ⟨hn, hlast⟩ := lastOn_some hl
      refine Cert.LibScatterSet.scatter_set_hit _ _ _ _ _ (ix1 n) ((lands_iff g hg n y x).mpr hn) ?_
      intro j' hlt
      obtain ⟨r, rfl⟩ : ∃ r : Fin 1048576, j' = ix1 r := ⟨j' 0, eq_ix1 (n := 1048576) j'⟩
      rw [Ne, lands_iff g hg]
      refine hlast r ?_
      rw [Shape.rowMajor_val_one, Shape.rowMajor_val_one] at hlt
      exact hlt

variable (m : (ℓ : Loc nD τ sig) → Buf (Elt Ideal) ℓ)

/-- The argument arrays as launched, at their literal types. -/
abbrev argPos (c : Dev nD) : SGrid.Idx → EReal := m ((c : Thread nD τ).loc main_arg0)
abbrev argTab (c : Dev nD) : STab.Idx → EReal := m ((c : Thread nD τ).loc main_arg1)
abbrev argW1 (c : Dev nD) : SW1.Idx → EReal := m ((c : Thread nD τ).loc main_arg2)
abbrev argB1 (c : Dev nD) : SB1.Idx → EReal := m ((c : Thread nD τ).loc main_arg3)
abbrev argW2 (c : Dev nD) : SW2.Idx → EReal := m ((c : Thread nD τ).loc main_arg4)
abbrev argB2 (c : Dev nD) : SB2.Idx → EReal := m ((c : Thread nD τ).loc main_arg5)
abbrev argPts (c : Dev nD) : SPts.Idx → BitVec 32 := m ((c : Thread nD τ).loc main_arg6)
abbrev argIds (c : Dev nD) : SIds.Idx → BitVec 32 := m ((c : Thread nD τ).loc main_arg7)

/-- The id array the region finds: at cell `(y, x)` the id of the last point on it, zero on an empty cell. -/
theorem V_winner (c : Dev nD) (hg : GridInRange (argPts m c)) (y x : Fin 1024) :
    (V m c main_v24 : SCell.Idx → BitVec 32) (ix2 y x) = winnerAt (argPts m c) (argIds m c) y.val x.val := by
  have e : @Eq (SCell.Idx → BitVec 32) (V m c main_v24)
      (shapeCast S1024x1024
        (Host.scatter scatter_S1048576_S1048576x1_S1048576_n_0_0_1 (fun _ b => b) (fun _ => 0#32)
          (flatIdx (argPts m c)) (argIds m c))
        shapeCasts_S1048576_S1024x1024) := by
    dsimp only [Gen.V, Gen.hostOps0]; after_results_simp; rfl
  refine (congrFun e (ix2 y x)).trans ?_
  refine (cellScatter_apply (argPts m c) hg (0#32) (argIds m c) y x).trans ?_
  cases hl : lastOn (argPts m c) y.val x.val with
  | none => exact (winnerAt_of_none hl).symm
  | some n => exact (winnerAt_of_some hl).symm

/-- The mask array the region finds: one at a cell some point is on, zero elsewhere. -/
theorem V_mask (c : Dev nD) (hg : GridInRange (argPts m c)) (y x : Fin 1024) :
    (V m c main_v25 : SCell.Idx → EReal) (ix2 y x) = maskAt (argPts m c) y.val x.val := by
  have e : @Eq (SCell.Idx → EReal) (V m c main_v25)
      (shapeCast S1024x1024
        (Host.scatter scatter_S1048576_S1048576x1_S1048576_n_0_0_1 (fun _ b => b)
          (fun _ => Ideal.ofBits .f32 0x00000000#32)
          (flatIdx (argPts m c)) (fun _ => Ideal.ofBits .f32 0x3F800000#32))
        shapeCasts_S1048576_S1024x1024) := by
    dsimp only [Gen.V, Gen.hostOps0]; after_results_simp; rfl
  refine (congrFun e (ix2 y x)).trans ?_
  refine (cellScatter_apply (argPts m c) hg _ _ y x).trans ?_
  cases hl : lastOn (argPts m c) y.val x.val with
  | none => exact Ideal.ofBits_zero_f32.trans (maskAt_of_none hl).symm
  | some n => exact Ideal.ofBits_one_f32.trans (maskAt_of_some hl).symm

/-- The bf16 table is the table. -/
theorem V_table (c : Dev nD) : (V m c main_v26 : STab.Idx → EReal) = argTab m c := by
  have e : @Eq (STab.Idx → EReal) (V m c main_v26)
      (truncf (F := Ideal) (s := S4096x64) (φ := .f32) .bf16 (argTab m c) bitsLt_bf16_f32) := by
    dsimp only [Gen.V, Gen.hostOps0]; after_results
  exact e

/-- The bf16 first-layer weights are the weights. -/
theorem V_w1 (c : Dev nD) : (V m c main_v27 : SW1.Idx → EReal) = argW1 m c := by
  have e : @Eq (SW1.Idx → EReal) (V m c main_v27)
      (truncf (F := Ideal) (s := S128x128) (φ := .f32) .bf16 (argW1 m c) bitsLt_bf16_f32) := by
    dsimp only [Gen.V, Gen.hostOps0]; after_results
  exact e

/-- The bf16 second-layer weights are the weights. -/
theorem V_w2 (c : Dev nD) : (V m c main_v28 : SW2.Idx → EReal) = argW2 m c := by
  have e : @Eq (SW2.Idx → EReal) (V m c main_v28)
      (truncf (F := Ideal) (s := S128x64) (φ := .f32) .bf16 (argW2 m c) bitsLt_bf16_f32) := by
    dsimp only [Gen.V, Gen.hostOps0]; after_results
  exact e

end Cert.KernelIdeal.HostValue

end
-- ==== Proof.KernelPay.lean ====
/-
  The kernel body's perceptron at one cell of a block: the one-hot product with the table picks the table row the
  cell's id names, and the two matrix products, the bias adds and the rectifier are the perceptron of the joined features.
-/
import proofs.«401134_j85289460564572_1_alg».proof.Proof.Gen.KernelIdeal.Skeleton
import proofs.«401134_j85289460564572_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Bev
open scoped BigOperators

/-- The product with the table: the left operand's row coordinate is the output's. -/
theorem lhs_tab_0 (i : S2048x64.Idx) (q : dot_S2048x4096_S4096x64_S2048x64_1_0_0_1_n_n.contr.Idx) :
    (dot_S2048x4096_S4096x64_S2048x64_1_0_0_1_n_n.lhsIdx i q 0).val = (i 0).val := by
  unfold DotDims.lhsIdx
  rw [dif_neg (show ¬(0 : Fin S2048x4096.rank) ∈ dot_S2048x4096_S4096x64_S2048x64_1_0_0_1_n_n.lhsBatch by decide), dif_pos (show (0 : Fin S2048x4096.rank) ∈ dot_S2048x4096_S4096x64_S2048x64_1_0_0_1_n_n.lhsNonContracting by decide)]
  rfl
/-- The product with the table: the left operand's column coordinate is the contracted one. -/
theorem lhs_tab_1 (i : S2048x64.Idx) (q : dot_S2048x4096_S4096x64_S2048x64_1_0_0_1_n_n.contr.Idx) :
    (dot_S2048x4096_S4096x64_S2048x64_1_0_0_1_n_n.lhsIdx i q 1).val = (q ⟨0, by decide⟩).val :=
  dot_S2048x4096_S4096x64_S2048x64_1_0_0_1_n_n.lhsIdx_val_of_single rfl i q
/-- The product with the table: the right operand's row coordinate is the contracted one. -/
theorem rhs_tab_0 (i : S2048x64.Idx) (q : dot_S2048x4096_S4096x64_S2048x64_1_0_0_1_n_n.contr.Idx) :
    (dot_S2048x4096_S4096x64_S2048x64_1_0_0_1_n_n.rhsIdx i q 0).val = (q ⟨0, by decide⟩).val :=
  dot_S2048x4096_S4096x64_S2048x64_1_0_0_1_n_n.rhsIdx_val_of_single rfl i q
/-- The product with the table: the right operand's column coordinate is the output's. -/
theorem rhs_tab_1 (i : S2048x64.Idx) (q : dot_S2048x4096_S4096x64_S2048x64_1_0_0_1_n_n.contr.Idx) :
    (dot_S2048x4096_S4096x64_S2048x64_1_0_0_1_n_n.rhsIdx i q 1).val = (i 1).val := by
  unfold DotDims.rhsIdx
  rw [dif_neg (show ¬(1 : Fin S4096x64.rank) ∈ dot_S2048x4096_S4096x64_S2048x64_1_0_0_1_n_n.rhsBatch by decide), dif_pos (show (1 : Fin S4096x64.rank) ∈ dot_S2048x4096_S4096x64_S2048x64_1_0_0_1_n_n.rhsNonContracting by decide)]
  rfl
/-- The product with the table into the zero accumulator, at `(r, c)`: the sum over the contracted coordinate of row `r` of the left
    operand against column `c` of the right. -/
theorem mm_tab_apply (x : FVec Ideal S2048x4096 .bf16) (y : FVec Ideal S4096x64 .bf16) (r : Fin 2048) (c : Fin 64) :
    matmul dot_S2048x4096_S4096x64_S2048x64_1_0_0_1_n_n none x y (constant S2048x64 .f32 0x00000000#32) (ix2 r c)
      = ∑ k : Fin 4096, x (ix2 r k) * y (ix2 k c) := by
  refine (Ideal.matmul_constant_zero_apply _ none _ _ _).trans ?_
  rw [← Equiv.sum_comp (ValueIdx.contrEquiv1 dot_S2048x4096_S4096x64_S2048x64_1_0_0_1_n_n 4096 rfl rfl).symm]
  refine Finset.sum_congr rfl fun k _ => ?_
  have hk := ValueIdx.contrEquiv1_symm_val dot_S2048x4096_S4096x64_S2048x64_1_0_0_1_n_n 4096 rfl rfl k
  have el : dot_S2048x4096_S4096x64_S2048x64_1_0_0_1_n_n.lhsIdx (ix2 r c) ((ValueIdx.contrEquiv1 dot_S2048x4096_S4096x64_S2048x64_1_0_0_1_n_n 4096 rfl rfl).symm k) = ix2 r k := funext fun a => Fin.ext (by
    match a with
    | ⟨0, _⟩ => exact lhs_tab_0 _ _
    | ⟨1, _⟩ => exact (lhs_tab_1 _ _).trans hk)
  have er : dot_S2048x4096_S4096x64_S2048x64_1_0_0_1_n_n.rhsIdx (ix2 r c) ((ValueIdx.contrEquiv1 dot_S2048x4096_S4096x64_S2048x64_1_0_0_1_n_n 4096 rfl rfl).symm k) = ix2 k c := funext fun a => Fin.ext (by
    match a with
    | ⟨0, _⟩ => exact (rhs_tab_0 _ _).trans hk
    | ⟨1, _⟩ => exact rhs_tab_1 _ _)
  rw [el, er]

/-- The product with the first weights: the left operand's row coordinate is the output's. -/
theorem lhs_w1_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- The product with the first weights: the left operand's column coordinate is the contracted one. -/
theorem lhs_w1_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- The product with the first weights: the right operand's row coordinate is the contracted one. -/
theorem rhs_w1_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- The product with the first weights: the right operand's column coordinate is the output's. -/
theorem rhs_w1_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
/-- The product with the first weights into the zero accumulator, at `(r, c)`: the sum over the contracted coordinate of row `r` of the left
    operand against column `c` of the right. -/
theorem mm_w1_apply (x : FVec Ideal S2048x128 .bf16) (y : FVec Ideal S128x128 .bf16) (r : Fin 2048) (c : Fin 128) :
    matmul dot_S2048x128_S128x128_S2048x128_1_0_0_1_n_n none x y (constant S2048x128 .f32 0x00000000#32) (ix2 r c)
      = ∑ k : Fin 128, x (ix2 r k) * y (ix2 k c) := by
  refine (Ideal.matmul_constant_zero_apply _ none _ _ _).trans ?_
  rw [← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r c) ((ValueIdx.contrEquiv1 dot_S2048x128_S128x128_S2048x128_1_0_0_1_n_n 128 rfl rfl).symm k) = ix2 r k := funext fun a => Fin.ext (by
    match a with
    | ⟨0, _⟩ => exact lhs_w1_0 _ _
    | ⟨1, _⟩ => exact (lhs_w1_1 _ _).trans hk)
  have er : dot_S2048x128_S128x128_S2048x128_1_0_0_1_n_n.rhsIdx (ix2 r c) ((ValueIdx.contrEquiv1 dot_S2048x128_S128x128_S2048x128_1_0_0_1_n_n 128 rfl rfl).symm k) = ix2 k c := funext fun a => Fin.ext (by
    match a with
    | ⟨0, _⟩ => exact (rhs_w1_0 _ _).trans hk
    | ⟨1, _⟩ => exact rhs_w1_1 _ _)
  rw [el, er]

/-- The product with the second weights: the left operand's row coordinate is the output's. -/
theorem lhs_w2_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
/-- The product with the second weights: the left operand's column coordinate is the contracted one. -/
theorem lhs_w2_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
/-- The product with the second weights: the right operand's row coordinate is the contracted one. -/
theorem rhs_w2_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
/-- The product with the second weights: the right operand's column coordinate is the output's. -/
theorem rhs_w2_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl
/-- The product with the second weights into the zero accumulator, at `(r, c)`: the sum over the contracted coordinate of row `r` of the left
    operand against column `c` of the right. -/
theorem mm_w2_apply (x : FVec Ideal S2048x128 .bf16) (y : FVec Ideal S128x64 .bf16) (r : Fin 2048) (c : Fin 64) :
    matmul dot_S2048x128_S128x64_S2048x64_1_0_0_1_n_n none x y (constant S2048x64 .f32 0x00000000#32) (ix2 r c)
      = ∑ k : Fin 128, x (ix2 r k) * y (ix2 k c) := by
  refine (Ideal.matmul_constant_zero_apply _ none _ _ _).trans ?_
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r c) ((ValueIdx.contrEquiv1 dot_S2048x128_S128x64_S2048x64_1_0_0_1_n_n 128 rfl rfl).symm k) = ix2 r k := funext fun a => Fin.ext (by
    match a with
    | ⟨0, _⟩ => exact lhs_w2_0 _ _
    | ⟨1, _⟩ => exact (lhs_w2_1 _ _).trans hk)
  have er : dot_S2048x128_S128x64_S2048x64_1_0_0_1_n_n.rhsIdx (ix2 r c) ((ValueIdx.contrEquiv1 dot_S2048x128_S128x64_S2048x64_1_0_0_1_n_n 128 rfl rfl).symm k) = ix2 k c := funext fun a => Fin.ext (by
    match a with
    | ⟨0, _⟩ => exact (rhs_w2_0 _ _).trans hk
    | ⟨1, _⟩ => exact rhs_w2_1 _ _)
  rw [el, er]

/-! ## The body's stages, named -/

/-- The one-hot rows: row `a * 128 + b` compares the id at `(a, b)` with every column's number. -/
def oneHot (v1 : IVec S16x128 32) : FVec Ideal S2048x4096 .bf16 :=
  shapeCast S2048x4096
    (truncf .bf16
      (sitofp .f32
        (extui 32
          (cmpi .eq
            (broadcastTo S16x128x4096
              (shapeCast S16x128x1 (shapeCast S16x128 v1 shapeCasts_S16x128_S16x128) shapeCasts_S16x128_S16x128x1)
              broadcasts_S16x128x1_S16x128x4096)
            (broadcastTo S16x128x4096 (iota .tc S1x1x4096 32 [2] iota_S1x1x4096_d2_w32)
              broadcasts_S1x1x4096_S16x128x4096))
          natLt_1_32) : FVec Ideal S16x128x4096 .f32)
      bitsLt_bf16_f32)
    shapeCasts_S16x128x4096_S2048x4096

/-- The one-hot rows times the table, as a block of feature rows. -/
def gathered (v1 : IVec S16x128 32) (v5 : FVec Ideal S4096x64 .bf16) : FVec Ideal S16x128x64 .f32 :=
  shapeCast S16x128x64
    (matmul dot_S2048x4096_S4096x64_S2048x64_1_0_0_1_n_n none (oneHot v1)
      (shapeCast S4096x64 v5 shapeCasts_S4096x64_S4096x64) (constant S2048x64 .f32 0x00000000#32))
    shapeCasts_S2048x64_S16x128x64

/-- The positional features joined with the gathered features, one row per cell. -/
def fusedRows (v0 : FVec Ideal S16x128x64 .f32) (v1 : IVec S16x128 32) (v5 : FVec Ideal S4096x64 .bf16) :
    FVec Ideal S2048x128 .bf16 :=
  truncf .bf16
    (shapeCast S2048x128
      (concatenate S16x128x128 2 [⟨S16x128x64, v0⟩, ⟨S16x128x64, gathered v1 v5⟩]
        concatenates_S16x128x64_S16x128x64_S16x128x128_d2)
      shapeCasts_S16x128x128_S2048x128)
    bitsLt_bf16_f32

/-- The hidden layer, one row per cell. -/
def hiddenRows (v0 : FVec Ideal S16x128x64 .f32) (v1 : IVec S16x128 32) (v5 : FVec Ideal S4096x64 .bf16)
    (v7 : FVec Ideal S128x128 .bf16) (v9 : FVec Ideal S128 .f32) : FVec Ideal S2048x128 .bf16 :=
  truncf .bf16
    (maximumf
      (addf
        (matmul dot_S2048x128_S128x128_S2048x128_1_0_0_1_n_n none (fusedRows v0 v1 v5)
          (shapeCast S128x128 v7 shapeCasts_S128x128_S128x128) (constant S2048x128 .f32 0x00000000#32))
        (broadcastTo S2048x128 (shapeCast S1x128 v9 shapeCasts_S128_S1x128) broadcasts_S1x128_S2048x128))
      (broadcast S2048x128 (Scalar.ofBits .f32 0x00000000#32)))
    bitsLt_bf16_f32

/-- The output layer, one row per cell. -/
def outRows (v0 : FVec Ideal S16x128x64 .f32) (v1 : IVec S16x128 32) (v5 : FVec Ideal S4096x64 .bf16)
    (v7 : FVec Ideal S128x128 .bf16) (v9 : FVec Ideal S128 .f32) (v10 : FVec Ideal S128x64 .bf16)
    (v12 : FVec Ideal S64 .f32) : FVec Ideal S2048x64 .f32 :=
  addf
    (matmul dot_S2048x128_S128x64_S2048x64_1_0_0_1_n_n none (hiddenRows v0 v1 v5 v7 v9)
      (shapeCast S128x64 v10 shapeCasts_S128x64_S128x64) (constant S2048x64 .f32 0x00000000#32))
    (broadcastTo S2048x64 (shapeCast S1x64 v12 shapeCasts_S64_S1x64) broadcasts_S1x64_S2048x64)

/-- The body's value is the output rows, as a block. -/
theorem pay3_eq_stages (P0 : FVec Ideal S16x128x64 .f32) (P1 : IVec S16x128 32) (P2 : FVec Ideal S4096x64 .bf16)
    (P3 : FVec Ideal S128x128 .bf16) (P4 : FVec Ideal S128 .f32) (P5 : FVec Ideal S128x64 .bf16) (P6 : FVec Ideal S64 .f32) :
    k0_pay3 (F := Ideal) P0 P1 P2 P3 P4 P5 P6
      = shapeCast S16x128x64 (outRows P0 P1 P2 P3 P4 P5 P6) shapeCasts_S2048x64_S16x128x64 := rfl

/-- A word comparison for equality, widened and converted: one when the words agree, zero otherwise. -/
theorem eq_indicator (x y : BitVec 32) :
    (Scalar.sitofp (F := Ideal) .f32 ((IntOp.cmpi .eq x y).setWidth 32) : Ideal .f32)
      = if x = y then (1 : EReal) else 0 := by
  show (((((IntOp.cmpi .eq x y).setWidth 32).toInt : ℤ) : ℝ) : EReal) = _
  unfold IntOp.cmpi
  by_cases h : x = y
  · subst h
    rw [if_pos rfl]
    have e : (x == x) = true := by simp
    rw [e]
    have : ((BitVec.ofBool true).setWidth 32).toInt = 1 := by decide
    rw [this]; simp
  · rw [if_neg h]
    have e : (x == y) = false := by simp [h]
    rw [e]
    have : ((BitVec.ofBool false).setWidth 32).toInt = 0 := by decide
    rw [this]; simp

/-! ## Each stage at an index -/

/-- The row of the flattened block that holds cell `(a, b)`. -/
def cellRow (a : Fin 16) (b : Fin 128) : Fin 2048 :=
  ⟨a.val * 128 + b.val, by have := a.isLt; have := b.isLt; omega⟩

/-- Comparing, widening and converting entry by entry gives the indicator of equality entry by entry. -/
theorem indicator_apply (X Y : IVec S16x128x4096 32) (i : S16x128x4096.Idx) :
    (truncf .bf16 (sitofp .f32 (extui 32 (cmpi .eq X Y) natLt_1_32) : FVec Ideal S16x128x4096 .f32) bitsLt_bf16_f32
      : FVec Ideal S16x128x4096 .bf16) i = if X i = Y i then (1 : EReal) else 0 :=
  eq_indicator (X i) (Y i)

/-- The ids, given a unit axis and repeated along it, read at `(a, b, k)`: the id at `(a, b)`. -/
theorem ids_bcast_apply (v1 : IVec S16x128 32) (a : Fin 16) (b : Fin 128) (k : Fin 4096) :
    broadcastTo S16x128x4096
        (shapeCast S16x128x1 (shapeCast S16x128 v1 shapeCasts_S16x128_S16x128) shapeCasts_S16x128_S16x128x1)
        broadcasts_S16x128x1_S16x128x4096 (ix3 a b k) = v1 (ix2 a b) := by
  refine (broadcastTo_apply _ _ (ix3 a b k) (ix3 a b (0 : Fin 1)) fun ax => ?_).trans ?_
  · match ax with
    | ⟨0, _⟩ => show a.val = if (16 : Nat) = 1 then 0 else a.val; rw [if_neg (by decide)]
    | ⟨1, _⟩ => show b.val = if (128 : Nat) = 1 then 0 else b.val; rw [if_neg (by decide)]
    | ⟨2, _⟩ => show (0 : Nat) = if (1 : Nat) = 1 then 0 else k.val; rw [if_pos rfl]
  · refine (shapeCast_apply _ _ (ix3 a b (0 : Fin 1)) (ix2 a b) ?_).trans ?_
    · rw [Shape.rowMajor_val_three, Shape.rowMajor_val_two]
      show a.val * 128 + b.val = (a.val * 128 + b.val) * 1 + 0
      omega
    · rw [shapeCast_self]

/-- The column numbers, repeated over the cells, read at `(a, b, k)`: the word of `k`. -/
theorem cols_bcast_apply (a : Fin 16) (b : Fin 128) (k : Fin 4096) :
    broadcastTo S16x128x4096 (iota .tc S1x1x4096 32 [2] iota_S1x1x4096_d2_w32)
        broadcasts_S1x1x4096_S16x128x4096 (ix3 a b k) = BitVec.ofNat 32 k.val := by
  refine (broadcastTo_apply _ _ (ix3 a b k) (ix3 (0 : Fin 1) (0 : Fin 1) k) fun ax => ?_).trans ?_
  · match ax with
    | ⟨0, _⟩ => show (0 : Nat) = if (1 : Nat) = 1 then 0 else a.val; rw [if_pos rfl]
    | ⟨1, _⟩ => show (0 : Nat) = if (1 : Nat) = 1 then 0 else b.val; rw [if_pos rfl]
    | ⟨2, _⟩ => show k.val = if (4096 : Nat) = 1 then 0 else k.val; rw [if_neg (by decide)]
  · exact iota_single_apply .tc S1x1x4096 32 2 iota_S1x1x4096_d2_w32 (ix3 (0 : Fin 1) (0 : Fin 1) k)

/-- Row `(a, b)` of the one-hot rows has a one in column `k` exactly when the id at `(a, b)` is `k`. -/
theorem oneHot_apply (v1 : IVec S16x128 32) (a : Fin 16) (b : Fin 128) (k : Fin 4096) :
    oneHot v1 (ix2 (cellRow a b) k) = if v1 (ix2 a b) = BitVec.ofNat 32 k.val then (1 : EReal) else 0 := by
  unfold oneHot
  refine (shapeCast_apply _ _ (ix2 (cellRow a b) k) (ix3 a b k) ?_).trans ?_
  · rw [Shape.rowMajor_val_three, Shape.rowMajor_val_two]
    rfl
  · refine (indicator_apply _ _ _).trans ?_
    rw [ids_bcast_apply, cols_bcast_apply]

/-- The gathered features at `(a, b, e)`: entry `e` of the table row the id at `(a, b)` names. -/
theorem gathered_apply (v1 : IVec S16x128 32) (v5 : FVec Ideal S4096x64 .bf16) (a : Fin 16) (b : Fin 128) (e : Fin 64)
    (hid : (v1 (ix2 a b)).toNat < 4096) :
    gathered v1 v5 (ix3 a b e) = v5 (ix2 ⟨(v1 (ix2 a b)).toNat, hid⟩ e) := by
  unfold gathered
  refine (shapeCast_apply _ _ (ix3 a b e) (ix2 (cellRow a b) e) ?_).trans ?_
  · rw [Shape.rowMajor_val_three, Shape.rowMajor_val_two]
    rfl
  · rw [mm_tab_apply, shapeCast_self]
    rw [Finset.sum_eq_single (⟨(v1 (ix2 a b)).toNat, hid⟩ : Fin 4096)]
    · rw [oneHot_apply, if_pos, one_mul]
      apply BitVec.eq_of_toNat_eq
      rw [BitVec.toNat_ofNat]
      exact (Nat.mod_eq_of_lt (by show (v1 (ix2 a b)).toNat < 2 ^ 32; omega)).symm
    · intro k _ hk
      rw [oneHot_apply, if_neg, zero_mul]
      intro h
      apply hk
      apply Fin.ext
      show k.val = (v1 (ix2 a b)).toNat
      rw [h, BitVec.toNat_ofNat]
      exact (Nat.mod_eq_of_lt (by have := k.isLt; omega)).symm
    · intro h
      exact absurd (Finset.mem_univ _) h

/-- The joined row of cell `(a, b)`: the positional features, then the gathered ones. -/
theorem fusedRows_apply (v0 : FVec Ideal S16x128x64 .f32) (v1 : IVec S16x128 32) (v5 : FVec Ideal S4096x64 .bf16)
    (a : Fin 16) (b : Fin 128) (k : Fin 128) :
    fusedRows v0 v1 v5 (ix2 (cellRow a b) k)
      = fused (fun e => v0 (ix3 a b e)) (fun e => gathered v1 v5 (ix3 a b e)) k := by
  unfold fusedRows
  show shapeCast S2048x128
      (concatenate S16x128x128 2 [⟨S16x128x64, v0⟩, ⟨S16x128x64, gathered v1 v5⟩]
        concatenates_S16x128x64_S16x128x64_S16x128x128_d2)
      shapeCasts_S16x128x128_S2048x128 (ix2 (cellRow a b) k) = _
  refine (shapeCast_apply _ _ (ix2 (cellRow a b) k) (ix3 a b k) ?_).trans ?_
  · rw [Shape.rowMajor_val_three, Shape.rowMajor_val_two]
    rfl
  · unfold fused
    by_cases h : k.val < 64
    · rw [dif_pos h]
      refine concatenate_pair_apply_left 2 v0 (gathered v1 v5) _ (ix3 a b k) rfl (ix3 a b ⟨k.val, h⟩) fun ax => ?_
      match ax with
      | ⟨0, _⟩ => rfl
      | ⟨1, _⟩ => rfl
      | ⟨2, _⟩ => rfl
    · rw [dif_neg h]
      refine concatenate_pair_apply_right 2 v0 (gathered v1 v5) _ (ix3 a b k) rfl rfl
        (ix3 a b ⟨k.val - 64, by have := k.isLt; omega⟩) (fun ax hax => ?_) ?_
      · match ax with
        | ⟨0, _⟩ => rfl
        | ⟨1, _⟩ => rfl
        | ⟨2, _⟩ => exact absurd rfl hax
      · show k.val - 64 + 64 = k.val
        omega

/-- A rectified sum of two arrays at an index. -/
theorem relu_add_apply (M B : FVec Ideal S2048x128 .f32) (i : S2048x128.Idx) :
    (truncf .bf16 (maximumf (addf M B) (broadcast S2048x128 (Scalar.ofBits .f32 0x00000000#32))) bitsLt_bf16_f32
      : FVec Ideal S2048x128 .bf16) i = max (M i + B i) 0 := by
  show max (M i + B i) (Ideal.ofBits .f32 0x00000000#32) = _
  rw [Ideal.ofBits_zero_f32]

/-- The first bias, as a row repeated over the cells, at `(r, j)`. -/
theorem bias1_apply (v9 : FVec Ideal S128 .f32) (r : Fin 2048) (j : Fin 128) :
    broadcastTo S2048x128 (shapeCast S1x128 v9 shapeCasts_S128_S1x128) broadcasts_S1x128_S2048x128 (ix2 r j)
      = v9 (ix1 j) := by
  rw [broadcastTo_1b_ab_apply, shapeCast_a_1a_apply]

/-- The second bias, as a row repeated over the cells, at `(r, d)`. -/
theorem bias2_apply (v12 : FVec Ideal S64 .f32) (r : Fin 2048) (d : Fin 64) :
    broadcastTo S2048x64 (shapeCast S1x64 v12 shapeCasts_S64_S1x64) broadcasts_S1x64_S2048x64 (ix2 r d)
      = v12 (ix1 d) := by
  rw [broadcastTo_1b_ab_apply, shapeCast_a_1a_apply]

/-- Hidden unit `j` of row `r`: the rectified affine form of the row's joined features. -/
theorem hiddenRows_apply (v0 : FVec Ideal S16x128x64 .f32) (v1 : IVec S16x128 32) (v5 : FVec Ideal S4096x64 .bf16)
    (v7 : FVec Ideal S128x128 .bf16) (v9 : FVec Ideal S128 .f32) (r : Fin 2048) (j : Fin 128) :
    hiddenRows v0 v1 v5 v7 v9 (ix2 r j) = Cert.Bev.hidden v7 v9 (fun k => fusedRows v0 v1 v5 (ix2 r k)) j := by
  unfold hiddenRows Cert.Bev.hidden
  refine (relu_add_apply _ _ _).trans ?_
  rw [mm_w1_apply, shapeCast_self, bias1_apply]

/-- Output feature `d` of row `r`: the affine form of the row's hidden units. -/
theorem outRows_apply (v0 : FVec Ideal S16x128x64 .f32) (v1 : IVec S16x128 32) (v5 : FVec Ideal S4096x64 .bf16)
    (v7 : FVec Ideal S128x128 .bf16) (v9 : FVec Ideal S128 .f32) (v10 : FVec Ideal S128x64 .bf16)
    (v12 : FVec Ideal S64 .f32) (r : Fin 2048) (d : Fin 64) :
    outRows v0 v1 v5 v7 v9 v10 v12 (ix2 r d)
      = ∑ j : Fin 128, hiddenRows v0 v1 v5 v7 v9 (ix2 r j) * v10 (ix2 j d) + v12 (ix1 d) := by
  unfold outRows
  show matmul dot_S2048x128_S128x64_S2048x64_1_0_0_1_n_n none (hiddenRows v0 v1 v5 v7 v9)
        (shapeCast S128x64 v10 shapeCasts_S128x64_S128x64) (constant S2048x64 .f32 0x00000000#32) (ix2 r d)
      + broadcastTo S2048x64 (shapeCast S1x64 v12 shapeCasts_S64_S1x64) broadcasts_S1x64_S2048x64 (ix2 r d) = _
  rw [mm_w2_apply, shapeCast_self, bias2_apply]

/-- The body's value before the mask, at block entry `(a, b, d)`: the perceptron of the block's positional features at
    `(a, b)` joined with the table row named by the block's id at `(a, b)`. -/
theorem pay3_apply (P0 : FVec Ideal S16x128x64 .f32) (P1 : IVec S16x128 32) (P2 : FVec Ideal S4096x64 .bf16)
    (P3 : FVec Ideal S128x128 .bf16) (P4 : FVec Ideal S128 .f32) (P5 : FVec Ideal S128x64 .bf16) (P6 : FVec Ideal S64 .f32)
    (a : Fin 16) (b : Fin 128) (d : Fin 64) (hid : (P1 (ix2 a b)).toNat < 4096) :
    k0_pay3 (F := Ideal) P0 P1 P2 P3 P4 P5 P6 (ix3 a b d)
      = mlp P3 P4 P5 P6 (fused (fun e => P0 (ix3 a b e)) (fun e => P2 (ix2 ⟨(P1 (ix2 a b)).toNat, hid⟩ e))) d := by
  rw [pay3_eq_stages]
  refine (shapeCast_apply _ _ (ix3 a b d) (ix2 (cellRow a b) d) ?_).trans ?_
  · rw [Shape.rowMajor_val_three, Shape.rowMajor_val_two]
    rfl
  · rw [outRows_apply]
    unfold mlp
    have hf : (fun k => fusedRows P0 P1 P2 (ix2 (cellRow a b) k))
        = fused (fun e => P0 (ix3 a b e)) (fun e => P2 (ix2 ⟨(P1 (ix2 a b)).toNat, hid⟩ e)) := by
      funext k
      rw [fusedRows_apply]
      congr 1
      funext e
      exact gathered_apply P1 P2 a b e hid
    congr 1
    refine Finset.sum_congr rfl fun j _ => ?_
    rw [hiddenRows_apply, hf]

end Cert.KernelIdeal.Pay

end
-- ==== Proof.KernelValue.lean ====
/-
  The kernel's result array: block by block the pallas_call writes, at every entry of the grid, the perceptron of the
  cell's positional features joined with the table row of the id kept there, times the cell's mask — which is the
  grid function `bev`.
-/
import proofs.«401134_j85289460564572_1_alg».proof.Proof.Gen.KernelIdeal.Value
import proofs.«401134_j85289460564572_1_alg».proof.Proof.Spec
import proofs.«401134_j85289460564572_1_alg».proof.Proof.KernelHost
import proofs.«401134_j85289460564572_1_alg».proof.Proof.KernelPay
import Idealize.ShloMosaic.Lib.Pipeline.Value
import Idealize.ShloMosaic.Lib.ValueIdx

noncomputable section

namespace Cert.KernelIdeal.GridValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Bev Cert.KernelIdeal.HostValue

variable (m : (ℓ : Loc nD τ sig) → Buf (Elt Ideal) ℓ) (ρ : Dev nD → PrngReg)

/-! ## The index maps on the grid -/

/-- Point `t` of the 64 × 8 grid works on block `(t / 8, t % 8)` of the grid of cells: the position, id, mask and
    output windows all sit at that block (the position and output windows at feature block 0), and the table, weight
    and bias windows at block 0 of their arrays, which is the whole array. -/
theorem idx_facts : ∀ t : Fin cfg0.N,
    win0_8.index t (0 : Fin 3) = t.val / 8 ∧ win0_8.index t (1 : Fin 3) = t.val % 8 ∧ win0_8.index t (2 : Fin 3) = 0
    ∧ win0_0.index t (0 : Fin 3) = t.val / 8 ∧ win0_0.index t (1 : Fin 3) = t.val % 8 ∧ win0_0.index t (2 : Fin 3) = 0
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The zero offsets of a whole-buffer rectangle of rank 3, 2 and 1 are the constant zero function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The blocks the body loads, as entries of the arrays -/

/-- The position block of point `t`, loaded whole: entry `y` is the position array's entry `k`, `k` the place of
    `y` in block `(t / 8, t % 8)`. -/
theorem pos_block (c : Dev nD) (t : Fin cfg0.N) (y : S16x128x64.Idx) (k : SGrid.Idx)
    (h0 : (k 0).val = t.val / 8 * 16 + (y 0).val) (h1 : (k 1).val = t.val % 8 * 128 + (y 1).val)
    (h2 : (k 2).val = (y 2).val) :
    View.ld (iblk m c 0 t : Vec Ideal S16x128x64 .f32) r0_0 y = argPos m c k := by
  obtain ⟨-, -, -, e0, e1, e2, -⟩ := idx_facts t
  rw [View.ld_unit_zero (S := S16x128x64) hz3]
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 16 + 1 * (y 0).val = (k 0).val; rw [e0, h0]; omega
  | ⟨1, _⟩ => show win0_0.index t (1 : Fin 3) * 128 + 1 * (y 1).val = (k 1).val; rw [e1, h1]; omega
  | ⟨2, _⟩ => show win0_0.index t (2 : Fin 3) * 64 + 1 * (y 2).val = (k 2).val; rw [e2, h2]; omega

/-- Entry `y` of block `(t / 8, t % 8)` of the grid of cells is the cell `(Y, X)`: the id window's block. -/
theorem id_emb (t : Fin cfg0.N) (y : S16x128.Idx) (Y X : Fin 1024)
    (h0 : Y.val = t.val / 8 * 16 + (y 0).val) (h1 : X.val = t.val % 8 * 128 + (y 1).val) :
    (((cfg0.win 1).blk t).view.emb y : SCell.Idx) = ix2 Y X := by
  obtain ⟨-, -, -, -, -, -, e0, e1, -⟩ := idx_facts t
  funext a
  apply Fin.ext
  match a with
  | ⟨0, _⟩ => show win0_1.index t (0 : Fin 2) * 16 + 1 * (y 0).val = Y.val; rw [e0, h0]; omega
  | ⟨1, _⟩ => show win0_1.index t (1 : Fin 2) * 128 + 1 * (y 1).val = X.val; rw [e1, h1]; omega

/-- The same for the mask window's block. -/
theorem mask_emb (t : Fin cfg0.N) (y : S16x128.Idx) (Y X : Fin 1024)
    (h0 : Y.val = t.val / 8 * 16 + (y 0).val) (h1 : X.val = t.val % 8 * 128 + (y 1).val) :
    (((cfg0.win 2).blk t).view.emb y : SCell.Idx) = ix2 Y X := by
  obtain ⟨-, -, -, -, -, -, -, -, e0, e1, -⟩ := idx_facts t
  funext a
  apply Fin.ext
  match a with
  | ⟨0, _⟩ => show win0_2.index t (0 : Fin 2) * 16 + 1 * (y 0).val = Y.val; rw [e0, h0]; omega
  | ⟨1, _⟩ => show win0_2.index t (1 : Fin 2) * 128 + 1 * (y 1).val = X.val; rw [e1, h1]; omega

/-- The id block of point `t`, loaded whole: entry `y` is the id kept at the cell `(Y, X)` where `y` sits in block
    `(t / 8, t % 8)`. -/
theorem id_block (c : Dev nD) (hg : GridInRange (argPts m c)) (t : Fin cfg0.N) (y : S16x128.Idx) (Y X : Fin 1024)
    (h0 : Y.val = t.val / 8 * 16 + (y 0).val) (h1 : X.val = t.val % 8 * 128 + (y 1).val) :
    View.ld (iblk m c 1 t : Vec Ideal S16x128 .i32) r0_1 y = winnerAt (argPts m c) (argIds m c) Y.val X.val := by
  have hw : (V m c (Pipeline.arrRef spec0 1) : SCell.Idx → BitVec 32) (ix2 Y X)
      = winnerAt (argPts m c) (argIds m c) Y.val X.val := V_winner m c hg Y X
  rw [View.ld_unit_zero (S := S16x128) hz2]
  unfold iblk
  generalize V m c (Pipeline.arrRef spec0 1) = A at hw ⊢
  rw [← hw, View.read_apply, id_emb t y Y X h0 h1]
  exact cast_eq _ _

/-- The mask block of point `t`, loaded whole: entry `y` is the mask of the cell `(Y, X)` where `y` sits in block
    `(t / 8, t % 8)`. -/
theorem mask_block (c : Dev nD) (hg : GridInRange (argPts m c)) (t : Fin cfg0.N) (y : S16x128.Idx) (Y X : Fin 1024)
    (h0 : Y.val = t.val / 8 * 16 + (y 0).val) (h1 : X.val = t.val % 8 * 128 + (y 1).val) :
    View.ld (iblk m c 2 t : Vec Ideal S16x128 .f32) r0_1 y = maskAt (argPts m c) Y.val X.val := by
  have hw : (V m c (Pipeline.arrRef spec0 2) : SCell.Idx → EReal) (ix2 Y X)
      = maskAt (argPts m c) Y.val X.val := V_mask m c hg Y X
  rw [View.ld_unit_zero (S := S16x128) hz2]
  unfold iblk
  generalize V m c (Pipeline.arrRef spec0 2) = A at hw ⊢
  rw [← hw, View.read_apply, mask_emb t y Y X h0 h1]
  exact cast_eq _ _

/-- The table window's block is the whole table. -/
theorem tab_block (c : Dev nD) (t : Fin cfg0.N) :
    View.ld (iblk m c 3 t : Vec Ideal S4096x64 .bf16) r0_2 = argTab m c := by
  obtain ⟨-, -, -, -, -, -, -, -, -, -, e0, e1, -⟩ := idx_facts t
  rw [View.ld_unit_zero (S := S4096x64) hz2, ← V_table m c]
  funext y
  unfold iblk
  rw [View.read_apply]
  show (V m c main_v26 : STab.Idx → EReal) _ = (V m c main_v26 : STab.Idx → EReal) _
  congr 1
  funext a
  apply Fin.ext
  match a with
  | ⟨0, _⟩ => show win0_3.index t (0 : Fin 2) * 4096 + 1 * (y 0).val = (y 0).val; rw [e0]; omega
  | ⟨1, _⟩ => show win0_3.index t (1 : Fin 2) * 64 + 1 * (y 1).val = (y 1).val; rw [e1]; omega

/-- The first-layer weight window's block is the whole weight matrix. -/
theorem w1_block (c : Dev nD) (t : Fin cfg0.N) :
    View.ld (iblk m c 4 t : Vec Ideal S128x128 .bf16) r0_3 = argW1 m c := by
  obtain ⟨-, -, -, -, -, -, -, -, -, -, -, -, e0, e1, -⟩ := idx_facts t
  rw [View.ld_unit_zero (S := S128x128) hz2, ← V_w1 m c]
  funext y
  unfold iblk
  rw [View.read_apply]
  show (V m c main_v27 : SW1.Idx → EReal) _ = (V m c main_v27 : SW1.Idx → EReal) _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The first-layer bias window's block is the whole bias. -/
theorem b1_block (c : Dev nD) (t : Fin cfg0.N) :
    View.ld (iblk m c 5 t : Vec Ideal S128 .f32) r0_4 = argB1 m c := by
  obtain ⟨-, -, -, -, -, -, -, -, -, -, -, -, -, -, e0, -⟩ := idx_facts t
  rw [View.ld_unit_zero (S := S128) hz1]
  funext y
  unfold iblk
  rw [View.read_apply]
  show V m c main_arg3 _ = m ((c : Thread nD τ).loc main_arg3) _
  rw [V_main_arg3]
  congr 1
  funext a
  apply Fin.ext
  match a with
  | ⟨0, _⟩ => show win0_5.index t (0 : Fin 1) * 128 + 1 * (y 0).val = (y 0).val; rw [e0]; omega

/-- The second-layer weight window's block is the whole weight matrix. -/
theorem w2_block (c : Dev nD) (t : Fin cfg0.N) :
    View.ld (iblk m c 6 t : Vec Ideal S128x64 .bf16) r0_5 = argW2 m c := by
  obtain ⟨-, -, -, -, -, -, -, -, -, -, -, -, -, -, -, e0, e1, -⟩ := idx_facts t
  rw [View.ld_unit_zero (S := S128x64) hz2, ← V_w2 m c]
  funext y
  unfold iblk
  rw [View.read_apply]
  show (V m c main_v28 : SW2.Idx → EReal) _ = (V m c main_v28 : SW2.Idx → EReal) _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 64 + 1 * (y 1).val = (y 1).val; rw [e1]; omega

/-- The second-layer bias window's block is the whole bias. -/
theorem b2_block (c : Dev nD) (t : Fin cfg0.N) :
    View.ld (iblk m c 7 t : Vec Ideal S64 .f32) r0_6 = argB2 m c := by
  obtain ⟨-, -, -, -, -, -, -, -, -, -, -, -, -, -, -, -, -, e0⟩ := idx_facts t
  rw [View.ld_unit_zero (S := S64) hz1]
  funext y
  unfold iblk
  rw [View.read_apply]
  show V m c main_arg5 _ = m ((c : Thread nD τ).loc main_arg5) _
  rw [V_main_arg5]
  congr 1
  funext a
  apply Fin.ext
  match a with
  | ⟨0, _⟩ => show win0_7.index t (0 : Fin 1) * 64 + 1 * (y 0).val = (y 0).val; rw [e0]; omega

/-! ## One cell: the masked perceptron is the grid function's entry -/

/-- The id kept at a cell names a row of the table: the last point's id does, and so does the zero of an empty cell. -/
theorem winner_lt (g : SPts.Idx → BitVec 32) (ids : SIds.Idx → BitVec 32) (hi : IdsInRange ids) (y x : Nat) :
    (winnerAt g ids y x).toNat < 4096 := by
  rcases hL : lastOn g y x with _ | n
  · rw [winnerAt_of_none hL]; decide
  · rw [winnerAt_of_some hL]; exact hi n

/-- Where block index `(a, b, d)` reads the perceptron and the mask. -/
theorem ix8_0_ix3 (a : Fin 16) (b : Fin 128) (d : Fin 64) : ix8_0 (ix3 a b d) = ix3 a b d := by
  funext q; apply Fin.ext
  match q with | ⟨0, _⟩ => rfl | ⟨1, _⟩ => rfl | ⟨2, _⟩ => rfl

theorem ix8_1_ix3 (a : Fin 16) (b : Fin 128) (d : Fin 64) : ix8_1 (ix3 a b d) = ix2 a b := by
  funext q; apply Fin.ext
  match q with | ⟨0, _⟩ => rfl | ⟨1, _⟩ => rfl

/-- ONE CELL. Entry `(a, b, d)` of the block the body leaves — the perceptron of the block's positional features at
    `(a, b)` joined with the table row of the block's id there, times the block's mask there — is the grid function's
    entry `(Y, X, d)`, when the blocks hold at `(a, b)` what the arrays hold at the cell `(Y, X)`: on an empty cell
    the mask is zero and so is the grid function; on a cell some point lands on the mask is one and the id is the last
    such point's, which is in range, so the row it names is the table's row of that id. -/
theorem cell_eq (pos : SGrid.Idx → EReal) (tab : STab.Idx → EReal) (w1 : SW1.Idx → EReal) (b1 : SB1.Idx → EReal)
    (w2 : SW2.Idx → EReal) (b2 : SB2.Idx → EReal) (g : SPts.Idx → BitVec 32) (ids : SIds.Idx → BitVec 32)
    (hi : IdsInRange ids)
    (P0 : Vec Ideal S16x128x64 .f32) (P1 : Vec Ideal S16x128 .i32) (P2 : Vec Ideal S4096x64 .bf16)
    (P3 : Vec Ideal S128x128 .bf16) (P4 : Vec Ideal S128 .f32) (P5 : Vec Ideal S128x64 .bf16) (P6 : Vec Ideal S64 .f32)
    (P7 : Vec Ideal S16x128 .f32) (Y X : Fin 1024) (a : Fin 16) (b : Fin 128) (d : Fin 64)
    (h0 : ∀ e : Fin 64, P0 (ix3 a b e) = pos (ix3 Y X e))
    (h1 : P1 (ix2 a b) = winnerAt g ids Y.val X.val)
    (h2 : P2 = tab) (h3 : P3 = w1) (h4 : P4 = b1) (h5 : P5 = w2) (h6 : P6 = b2)
    (h7 : P7 (ix2 a b) = maskAt g Y.val X.val) :
    E8 P0 P1 P2 P3 P4 P5 P6 P7 (ix3 a b d) = bevAt pos tab w1 b1 w2 b2 g ids Y X d := by
  subst h2 h3 h4 h5 h6
  have hid : (P1 (ix2 a b)).toNat < 4096 := by rw [h1]; exact winner_lt g ids hi Y.val X.val
  unfold E8
  rw [ix8_0_ix3, ix8_1_ix3, Ideal.mulf_def, Pay.pay3_apply P0 P1 P2 P3 P4 P5 P6 a b d hid, h7]
  rcases hL : lastOn g Y.val X.val with _ | n
  · rw [maskAt_of_none hL, bevAt_of_none d hL, mul_zero]
  · rw [winnerAt_of_some hL] at h1
    have hrow : (⟨(P1 (ix2 a b)).toNat, hid⟩ : Fin 4096) = rowOf (ids (ix1 n)) :=
      Fin.ext (by show (P1 (ix2 a b)).toNat = (ids (ix1 n)).toNat % 4096; rw [h1, Nat.mod_eq_of_lt (hi n)])
    have hf : (fun e : Fin 64 => P0 (ix3 a b e)) = fun e => pos (ix3 Y X e) := funext h0
    rw [maskAt_of_some hL, bevAt_of_some d hL, mul_one, hrow, hf]

/-! ## From blocks to the array -/

/-- Entry `(a, b, d)` of output block `(t / 8, t % 8)` is the array's entry `(Y, X, d)`, `(Y, X)` the place of
    `(a, b)` in that block of cells. -/
theorem out_emb (t : Fin cfg0.N) (a : Fin 16) (b : Fin 128) (d : Fin 64) (Y X : Fin 1024)
    (h0 : Y.val = t.val / 8 * 16 + a.val) (h1 : X.val = t.val % 8 * 128 + b.val) :
    (((cfg0.win 8).blk t).view.emb (ix3 a b d : S16x128x64.Idx) : SGrid.Idx) = ix3 Y X d := by
  obtain ⟨e0, e1, e2, -⟩ := idx_facts t
  funext q
  apply Fin.ext
  match q with
  | ⟨0, _⟩ => show win0_8.index t (0 : Fin 3) * 16 + 1 * a.val = Y.val; rw [e0, h0]; omega
  | ⟨1, _⟩ => show win0_8.index t (1 : Fin 3) * 128 + 1 * b.val = X.val; rw [e1, h1]; omega
  | ⟨2, _⟩ => show win0_8.index t (2 : Fin 3) * 64 + 1 * d.val = d.val; rw [e2]; omega

/-- WHAT POINT `t` WRITES BACK is block `t` of the grid function of the argument arrays: entry by entry, the body's
    masked perceptron over the point's blocks is the grid function at the cell the entry sits on. -/
theorem flushed_eq (c : Dev nD) (hg : GridInRange (argPts m c)) (hi : IdsInRange (argIds m c)) (t : Fin cfg0.N) :
    (dats m 0 c).flushed 8 t = ((cfg0.win 8).blk t).view.read (Elt Ideal)
      (bev (argPos m c) (argTab m c) (argW1 m c) (argB1 m c) (argW2 m c) (argB2 m c) (argPts m c) (argIds m c)) := by
  have ht : t.val < 512 := lt_of_lt_of_eq t.isLt N_0
  rw [Value.flushed8]
  unfold Gen.out0_8
  refine funext fun (y : S16x128x64.Idx) => ?_
  obtain ⟨a, b, d, rfl⟩ : ∃ (a : Fin 16) (b : Fin 128) (d : Fin 64), y = ix3 a b d := ⟨y 0, y 1, y 2, eq_ix3 y⟩
  obtain ⟨Y, hY⟩ : ∃ Y : Fin 1024, Y.val = t.val / 8 * 16 + a.val := ⟨⟨t.val / 8 * 16 + a.val, by omega⟩, rfl⟩
  obtain ⟨X, hX⟩ : ∃ X : Fin 1024, X.val = t.val % 8 * 128 + b.val := ⟨⟨t.val % 8 * 128 + b.val, by omega⟩, rfl⟩
  rw [View.read_apply, out_emb t a b d Y X hY hX, cast_eq]
  refine (Value.canon8_eq (View.ld (iblk m c 0 t) r0_0) (View.ld (iblk m c 1 t) r0_1) (View.ld (iblk m c 3 t) r0_2)
    (View.ld (iblk m c 4 t) r0_3) (View.ld (iblk m c 5 t) r0_4) (View.ld (iblk m c 6 t) r0_5)
    (View.ld (iblk m c 7 t) r0_6) (View.ld (iblk m c 2 t) r0_1) (ix3 a b d)).trans ?_
  refine Eq.trans ?_ (show bevAt (argPos m c) (argTab m c) (argW1 m c) (argB1 m c) (argW2 m c) (argB2 m c) (argPts m c)
    (argIds m c) Y X d = bev (argPos m c) (argTab m c) (argW1 m c) (argB1 m c) (argW2 m c) (argB2 m c) (argPts m c)
    (argIds m c) (ix3 Y X d) from rfl)
  exact cell_eq (argPos m c) (argTab m c) (argW1 m c) (argB1 m c) (argW2 m c) (argB2 m c) (argPts m c) (argIds m c) hi
    (View.ld (iblk m c 0 t) r0_0) (View.ld (iblk m c 1 t) r0_1) (View.ld (iblk m c 3 t) r0_2)
    (View.ld (iblk m c 4 t) r0_3) (View.ld (iblk m c 5 t) r0_4) (View.ld (iblk m c 6 t) r0_5)
    (View.ld (iblk m c 7 t) r0_6) (View.ld (iblk m c 2 t) r0_1) Y X a b d
    (fun e => pos_block m c t (ix3 a b e) (ix3 Y X e) hY hX rfl)
    (id_block m c hg t (ix2 a b) Y X hY hX)
    (tab_block m c t) (w1_block m c t) (b1_block m c t) (w2_block m c t) (b2_block m c t)
    (mask_block m c hg t (ix2 a b) Y X hY hX)

/-- An index of the array is in point `t`'s block iff each coordinate is in the block's range on its axis. -/
theorem mem_blk (t : Fin cfg0.N) (i : S1024x1024x64.Idx) :
    i ∈ ((cfg0.win 8).blk t).view.set ↔ ∀ a : Fin 3, win0_8.index t a * S16x128x64.size a ≤ (i a).val
      ∧ (i a).val < win0_8.index t a * S16x128x64.size a + S16x128x64.size a := by
  show i ∈ ((View.whole main_v29).slice (win0_8.rect t)).set ↔ _
  rw [View.set_slice_whole, Rect.mem_set_unit]
  exact Iff.rfl

/-- THE BLOCKS COVER THE ARRAY: entry `(Y, X, d)` is in the block of the point `(Y / 16) * 8 + X / 128`. -/
theorem cover (i : S1024x1024x64.Idx) :
    ∃ t : Fin cfg0.N, (cfg0.win 8).flush t = true ∧ i ∈ ((cfg0.win 8).blk t).view.set := by
  have hi0 : (i 0).val < 1024 := (i 0).isLt
  have hi1 : (i 1).val < 1024 := (i 1).isLt
  have hi2 : (i 2).val < 64 := (i 2).isLt
  obtain ⟨t, ht⟩ : ∃ t : Fin cfg0.N, t.val = (i 0).val / 16 * 8 + (i 1).val / 128 :=
    ⟨⟨(i 0).val / 16 * 8 + (i 1).val / 128, by rw [show cfg0.N = 512 from N_0]; omega⟩, rfl⟩
  obtain ⟨e0, e1, e2, -⟩ := idx_facts t
  refine ⟨t, flush0_8 t, ?_⟩
  rw [mem_blk]
  intro a
  match a with
  | ⟨0, _⟩ =>
    show win0_8.index t (0 : Fin 3) * 16 ≤ (i 0).val ∧ (i 0).val < win0_8.index t (0 : Fin 3) * 16 + 16
    rw [e0, ht]; omega
  | ⟨1, _⟩ =>
    show win0_8.index t (1 : Fin 3) * 128 ≤ (i 1).val ∧ (i 1).val < win0_8.index t (1 : Fin 3) * 128 + 128
    rw [e1, ht]; omega
  | ⟨2, _⟩ =>
    show win0_8.index t (2 : Fin 3) * 64 ≤ (i 2).val ∧ (i 2).val < win0_8.index t (2 : Fin 3) * 64 + 64
    rw [e2]; omega

/-- After the run the output array is the grid function of the argument arrays. -/
theorem final (c : Dev nD) (hg : GridInRange (argPts m c)) (hi : IdsInRange (argIds m c)) :
    (dats m 0 c).arrAt 8 cfg0.N
      = bev (argPos m c) (argTab m c) (argW1 m c) (argB1 m c) (argW2 m c) (argB2 m c) (argPts m c) (argIds m c) := by
  exact (dats m 0 c).arrAt_eq_of_cover 8
    (bev (argPos m c) (argTab m c) (argW1 m c) (argB1 m c) (argW2 m c) (argB2 m c) (argPts m c) (argIds m c))
    (fun t _ => flushed_eq m c hg hi t) cover

/-- The kernel's run: it ends with the result at the grid function and the arguments unchanged. -/
theorem run (hg : ∀ c, GridInRange (argPts m c)) (hi : ∀ c, IdsInRange (argIds m c)) :
    θ_run defs (onTc (τ := τ) (main (F := Ideal))) ⟨m, fun _ => 0, ρ⟩ fun r => ∀ c : Dev nD,
      r.2.mem ((c : Thread nD τ).loc main_v29)
        = bev (argPos m c) (argTab m c) (argW1 m c) (argB1 m c) (argW2 m c) (argB2 m c) (argPts m c) (argIds m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hg c) (hi c)), (h c).2⟩) (run_blocks m ρ)

end Cert.KernelIdeal.GridValue

end
-- ==== Proof.LibGridScatter.lean ====
/-
  A two-index scatter into, and gather out of, a grid `[H, W, C]`, read at an entry.

  `bev.at[y, x].set(v)` for index vectors `y, x : [R]` and updates `v : [R, C]` lowers to `stablehlo.scatter` with the scatter
  indices `[R, 2]` (index vector on axis 1, its two components naming operand axes 0 and 1, both inserted) and the
  channel axis a window axis taken whole.  Update entry `(r, c)` lands on operand entry `(idx[r, 0], idx[r, 1], c)`, the
  two indices read as SIGNED integers and NOT clamped: a row whose index leaves the grid is dropped.
  `pos[y, x]` lowers to `stablehlo.gather` with the same `[R, 2]` start indices, the two leading operand axes collapsed:
  result entry `(r, c)` is operand entry `(idx[r, 0], idx[r, 1], c)` with each index read signed and clamped into its axis.
-/
import Idealize.ShloMosaic.Lib.ValueIdx
import Idealize.ShloMosaic.PureOps

noncomputable section

namespace Cert.LibGridScatter

open Idealize.ShloMosaic Idealize.ShloMosaic.ValueIdx

/-- The dimension numbers of a scatter of `[R, C]` update rows into `[H, W, C]` by scatter indices `[R, 2]`. -/
abbrev gridSDims (H W C R : Nat)
    (wf : ScatterDims.WF ⟨3, ![H, W, C]⟩ ⟨2, ![R, 2]⟩ ⟨2, ![R, C]⟩ [1] [0, 1] [0, 1] 1) :
    ScatterDims ⟨3, ![H, W, C]⟩ ⟨2, ![R, 2]⟩ ⟨2, ![R, C]⟩ where
  updateWindowDims := [1]
  insertedWindowDims := [0, 1]
  scatterDimsToOperandDims := [0, 1]
  indexVectorDim := 1
  wf := wf

/-- On the first grid axis the window of update entry `(r, c')` starts at row `r`'s first index, read signed. -/
theorem gridSDims_start_y {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨0, by decide⟩ : Fin 3) = (idx (ix2 r (0 : Fin 2))).toInt := by
  have hmem : (⟨0, by decide⟩ : Fin 3) ∈ (gridSDims H W C R wf).scatterDimsToOperandDims := List.mem_cons_self
  unfold ScatterDims.start
  rw [dif_pos hmem]
  have hsi : (gridSDims H W C R wf).siIdx (ix2 r c') ⟨List.idxOf (⟨0, by decide⟩ : Fin 3) (gridSDims H W C R wf).scatterDimsToOperandDims,
      List.idxOf_lt_length_iff.2 hmem⟩ = ix2 r (0 : Fin 2) := by
    funext b; refine Fin.ext ?_
    match b with
    | ⟨0, _⟩ => rfl
    | ⟨1, _⟩ => rfl
  rw [hsi]

/-- On the second grid axis the window of update entry `(r, c')` starts at row `r`'s second index, read signed. -/
theorem gridSDims_start_x {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨1, by decide⟩ : Fin 3) = (idx (ix2 r (1 : Fin 2))).toInt := by
  have hmem : (⟨1, by decide⟩ : Fin 3) ∈ (gridSDims H W C R wf).scatterDimsToOperandDims :=
    List.mem_cons_of_mem _ (List.mem_singleton.mpr rfl)
  unfold ScatterDims.start
  rw [dif_pos hmem]
  have hsi : (gridSDims H W C R wf).siIdx (ix2 r c') ⟨List.idxOf (⟨1, by decide⟩ : Fin 3) (gridSDims H W C R wf).scatterDimsToOperandDims,
      List.idxOf_lt_length_iff.2 hmem⟩ = ix2 r (1 : Fin 2) := by
    funext b; refine Fin.ext ?_
    match b with
    | ⟨0, _⟩ => rfl
    | ⟨1, _⟩ => rfl
  rw [hsi]

/-- The channel axis is not named by the index map: the window starts at `0` there. -/
theorem gridSDims_start_c {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨2, by decide⟩ : Fin 3) = 0 := by
  unfold ScatterDims.start
  rw [dif_neg]
  intro h
  simp at h

/-- The first grid axis is inserted: an update entry has no window coordinate on it. -/
theorem gridSDims_window_y {H W C R : Nat}
    (wf : ScatterDims.WF ⟨3, ![H, W, C]⟩ ⟨2, ![R, 2]⟩ ⟨2, ![R, C]⟩ [1] [0, 1] [0, 1] 1) (r : Fin R) (c' : Fin C) :
    (gridSDims H W C R wf).window (ix2 r c') (⟨0, by decide⟩ : Fin 3) = 0 := by
  unfold ScatterDims.window
  rw [dif_neg]
  intro h
  simp [ScatterDims.sKept, Shape.kept] at h

/-- The second grid axis is inserted: an update entry has no window coordinate on it. -/
theorem gridSDims_window_x {H W C R : Nat}
    (wf : ScatterDims.WF ⟨3, ![H, W, C]⟩ ⟨2, ![R, 2]⟩ ⟨2, ![R, C]⟩ [1] [0, 1] [0, 1] 1) (r : Fin R) (c' : Fin C) :
    (gridSDims H W C R wf).window (ix2 r c') (⟨1, by decide⟩ : Fin 3) = 0 := by
  unfold ScatterDims.window
  rw [dif_neg]
  intro h
  simp [ScatterDims.sKept, Shape.kept] at h

/-- On the channel axis the window coordinate of update entry `(r, c')` is `c'`. -/
theorem gridSDims_window_c {H W C R : Nat}
    (wf : ScatterDims.WF ⟨3, ![H, W, C]⟩ ⟨2, ![R, 2]⟩ ⟨2, ![R, C]⟩ [1] [0, 1] [0, 1] 1) (r : Fin R) (c' : Fin C) :
    (gridSDims H W C R wf).window (ix2 r c') (⟨2, by decide⟩ : Fin 3) = c'.val := by
  unfold ScatterDims.window
  rw [dif_pos (show (⟨2, by decide⟩ : Fin 3) ∈ (gridSDims H W C R wf).sKept by simp [ScatterDims.sKept, Shape.kept])]
  rfl

/-- Update entry `(r, c')` lands on the first grid coordinate its first index names, read signed. -/
theorem gridSDims_land_y {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨0, by decide⟩ : Fin 3)
        + ((gridSDims H W C R wf).window (ix2 r c') (⟨0, by decide⟩ : Fin 3) : Int)
      = (idx (ix2 r (0 : Fin 2))).toInt := by
  rw [gridSDims_start_y, gridSDims_window_y]; simp

/-- Update entry `(r, c')` lands on the second grid coordinate its second index names, read signed. -/
theorem gridSDims_land_x {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨1, by decide⟩ : Fin 3)
        + ((gridSDims H W C R wf).window (ix2 r c') (⟨1, by decide⟩ : Fin 3) : Int)
      = (idx (ix2 r (1 : Fin 2))).toInt := by
  rw [gridSDims_start_x, gridSDims_window_x]; simp

/-- Update entry `(r, c')` lands on channel `c'`. -/
theorem gridSDims_land_c {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) :
    (gridSDims H W C R wf).start (ix2 r c') idx (⟨2, by decide⟩ : Fin 3)
        + ((gridSDims H W C R wf).window (ix2 r c') (⟨2, by decide⟩ : Fin 3) : Int)
      = (c'.val : Int) := by
  rw [gridSDims_start_c, gridSDims_window_c]; simp

/-- Update entry `(r, c')` lands on operand entry `(y, x, c)` exactly when row `r`'s two indices, read signed, are `y`
    and `x`, and `c' = c`. -/
theorem gridSDims_resultIdx_iff {H W C R w : Nat}
    (wf : ScatterDims.WF ⟨3, ![H, W, C]⟩ ⟨2, ![R, 2]⟩ ⟨2, ![R, C]⟩ [1] [0, 1] [0, 1] 1)
    (idx : IVec ⟨2, ![R, 2]⟩ w) (r : Fin R) (c' : Fin C) (y : Fin H) (x : Fin W) (c : Fin C) :
    (gridSDims H W C R wf).resultIdx? (ix2 r c') idx = some (ix3 y x c)
      ↔ (idx (ix2 r (0 : Fin 2))).toInt = (y.val : Int) ∧ (idx (ix2 r (1 : Fin 2))).toInt = (x.val : Int) ∧ c' = c := by
  unfold ScatterDims.resultIdx?
  constructor
  · intro h
    split at h
    · rename_i hc
      have h0 := congrArg Fin.val (congrFun (Option.some.inj h) (⟨0, by decide⟩ : Fin 3))
      have h1 := congrArg Fin.val (congrFun (Option.some.inj h) (⟨1, by decide⟩ : Fin 3))
      have h2 := congrArg Fin.val (congrFun (Option.some.inj h) (⟨2, by decide⟩ : Fin 3))
      have hc0 := (hc (⟨0, by decide⟩ : Fin 3)).1
      have hc1 := (hc (⟨1, by decide⟩ : Fin 3)).1
      rw [gridSDims_land_y] at hc0
      rw [gridSDims_land_x] at hc1
      have e0 : ((gridSDims H W C R wf).start (ix2 r c') idx (⟨0, by decide⟩ : Fin 3)
          + ((gridSDims H W C R wf).window (ix2 r c') (⟨0, by decide⟩ : Fin 3) : Int)).toNat = y.val := h0
      have e1 : ((gridSDims H W C R wf).start (ix2 r c') idx (⟨1, by decide⟩ : Fin 3)
          + ((gridSDims H W C R wf).window (ix2 r c') (⟨1, by decide⟩ : Fin 3) : Int)).toNat = x.val := h1
      have e2 : ((gridSDims H W C R wf).start (ix2 r c') idx (⟨2, by decide⟩ : Fin 3)
          + ((gridSDims H W C R wf).window (ix2 r c') (⟨2, by decide⟩ : Fin 3) : Int)).toNat = c.val := h2
      rw [gridSDims_land_y] at e0
      rw [gridSDims_land_x] at e1
      rw [gridSDims_land_c] at e2
      exact ⟨by omega, by omega, Fin.ext (by omega)⟩
    · exact absurd h (by simp)
  · rintro ⟨hy, hx, rfl⟩
    have hc : ∀ a : Fin 3, 0 ≤ (gridSDims H W C R wf).start (ix2 r c') idx a + ((gridSDims H W C R wf).window (ix2 r c') a : Int)
        ∧ (gridSDims H W C R wf).start (ix2 r c') idx a + ((gridSDims H W C R wf).window (ix2 r c') a : Int)
          < (((⟨3, ![H, W, C]⟩ : Shape).size a : Nat) : Int) := by
      intro a
      match a with
      | ⟨0, _⟩ =>
        rw [gridSDims_land_y, hy]
        refine ⟨by omega, ?_⟩
        show (y.val : Int) < ((H : Nat) : Int)
        have := y.isLt
        omega
      | ⟨1, _⟩ =>
        rw [gridSDims_land_x, hx]
        refine ⟨by omega, ?_⟩
        show (x.val : Int) < ((W : Nat) : Int)
        have := x.isLt
        omega
      | ⟨2, _⟩ =>
        rw [gridSDims_land_c]
        refine ⟨by omega, ?_⟩
        show (c'.val : Int) < ((C : Nat) : Int)
        have := c'.isLt
        omega
    rw [dif_pos hc]
    congr 1
    funext a
    match a with
    | ⟨0, _⟩ =>
      refine Fin.ext ?_
      show ((gridSDims H W C R wf).start (ix2 r c') idx (⟨0, by decide⟩ : Fin 3)
          + ((gridSDims H W C R wf).window (ix2 r c') (⟨0, by decide⟩ : Fin 3) : Int)).toNat = y.val
      rw [gridSDims_land_y, hy]
      omega
    | ⟨1, _⟩ =>
      refine Fin.ext ?_
      show ((gridSDims H W C R wf).start (ix2 r c') idx (⟨1, by decide⟩ : Fin 3)
          + ((gridSDims H W C R wf).window (ix2 r c') (⟨1, by decide⟩ : Fin 3) : Int)).toNat = x.val
      rw [gridSDims_land_x, hx]
      omega
    | ⟨2, _⟩ =>
      refine Fin.ext ?_
      show ((gridSDims H W C R wf).start (ix2 r c') idx (⟨2, by decide⟩ : Fin 3)
          + ((gridSDims H W C R wf).window (ix2 r c') (⟨2, by decide⟩ : Fin 3) : Int)).toNat = c'.val
      rw [gridSDims_land_c]
      omega

/-- The dimension numbers of a gather out of `[H, W, C]` by start indices `[R, 2]`, the two leading axes collapsed. -/
abbrev gridGDims (H W C R : Nat)
    (wf : GatherDims.WF ⟨3, ![H, W, C]⟩ ⟨2, ![R, 2]⟩ ⟨2, ![R, C]⟩ [1] [0, 1] [] [0, 1] [] 1 ![1, 1, C]) :
    GatherDims ⟨3, ![H, W, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

/-- Result entry `(r, c)` of the gather is operand entry `(clamp idx[r, 0], clamp idx[r, 1], c)`. -/
theorem gridGather_apply {α : Type} {H W C R w : Nat} (hH : 0 < H) (hW : 0 < W)
    (wf : GatherDims.WF ⟨3, ![H, W, C]⟩ ⟨2, ![R, 2]⟩ ⟨2, ![R, C]⟩ [1] [0, 1] [] [0, 1] [] 1 ![1, 1, C])
    (x : (⟨3, ![H, W, C]⟩ : Shape).Idx → α) (idx : IVec ⟨2, ![R, 2]⟩ w) (r : Fin R) (c : Fin C) :
    Host.gather (gridGDims H W C R wf) x idx (ix2 r c)
      = x (ix3 ⟨min (idx (ix2 r (0 : Fin 2))).toInt.toNat (H - 1), by omega⟩
            ⟨min (idx (ix2 r (1 : Fin 2))).toInt.toNat (W - 1), by omega⟩ c) := by
  unfold Host.gather
  congr 1
  funext ax
  refine Fin.ext ?_
  show (gridGDims H W C R wf).start (ix2 r c) idx ax + (gridGDims H W C R wf).batchCoord (ix2 r c) ax
    + (gridGDims H W C R wf).offCoord (ix2 r c) ax = _
  rw [GatherDims.batchCoord_eq_zero _ _ _ List.not_mem_nil, Nat.add_zero]
  match ax with
  | ⟨0, _⟩ =>
    have hmem : (⟨0, by decide⟩ : Fin 3) ∈ (gridGDims H W C R wf).startIndexMap := List.mem_cons_self
    rw [GatherDims.offCoord_eq_zero _ _ _ (fun h => ((GatherDims.mem_sKept _ _).mp h).1 List.mem_cons_self),
      Nat.add_zero]
    unfold GatherDims.start
    rw [dif_pos hmem]
    have hsi : (gridGDims H W C R wf).siIdx (ix2 r c) ⟨List.idxOf (⟨0, by decide⟩ : Fin 3) (gridGDims H W C R wf).startIndexMap,
        List.idxOf_lt_length_iff.2 hmem⟩ = ix2 r (0 : Fin 2) := by
      funext b; refine Fin.ext ?_
      match b with
      | ⟨0, _⟩ => rfl
      | ⟨1, _⟩ => rfl
    rw [hsi]
    rfl
  | ⟨1, _⟩ =>
    have hmem : (⟨1, by decide⟩ : Fin 3) ∈ (gridGDims H W C R wf).startIndexMap :=
      List.mem_cons_of_mem _ (List.mem_singleton.mpr rfl)
    rw [GatherDims.offCoord_eq_zero _ _ _ (fun h => ((GatherDims.mem_sKept _ _).mp h).1
        (List.mem_cons_of_mem _ (List.mem_singleton.mpr rfl))),
      Nat.add_zero]
    unfold GatherDims.start
    rw [dif_pos hmem]
    have hsi : (gridGDims H W C R wf).siIdx (ix2 r c) ⟨List.idxOf (⟨1, by decide⟩ : Fin 3) (gridGDims H W C R wf).startIndexMap,
        List.idxOf_lt_length_iff.2 hmem⟩ = ix2 r (1 : Fin 2) := by
      funext b; refine Fin.ext ?_
      match b with
      | ⟨0, _⟩ => rfl
      | ⟨1, _⟩ => rfl
    rw [hsi]
    rfl
  | ⟨2, _⟩ =>
    unfold GatherDims.start
    rw [dif_neg (by intro h; simp at h), Nat.zero_add]
    rfl

end Cert.LibGridScatter

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.RefValue.lean ====
/-
  The reference's result: the scatter of the per-point perceptron outputs onto the grid leaves, at every entry, the
  grid function `bev` — a cell no point is on keeps zero, a cell some point is on ends at the last such point's output,
  whose gathered positional features are the cell's own.
-/
import proofs.«401134_j85289460564572_1_alg».proof.Proof.Gen.ReferenceIdeal.Read
import proofs.«401134_j85289460564572_1_alg».proof.Proof.Spec
import proofs.«401134_j85289460564572_1_alg».proof.Proof.LibScatterSet
import proofs.«401134_j85289460564572_1_alg».proof.Proof.LibGridScatter
import proofs.«401134_j85289460564572_1_alg».proof.Proof.LibRowGather
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Bev
open Cert.ReferenceIdeal.Read

/-- A non-negative signed word is kept by "add the extent when negative". -/
theorem wrap_nonneg (a K : BitVec 32) (ha : a.toNat < 2 ^ 31) :
    Scalar.select (IntOp.cmpi .slt a 0#32) (IntOp.addi a K) a = a := by
  unfold Scalar.select IntOp.cmpi
  have h : a.slt 0#32 = false := by
    unfold BitVec.slt
    have : a.toInt = a.toNat := by
      rw [BitVec.toInt_eq_msb_cond, BitVec.msb_eq_false_iff_two_mul_lt.mpr (by omega)]; simp
    simp [this]
  simp [h]

/-- A word below 2³¹ reads the same signed and unsigned. -/
theorem toInt_small (a : BitVec 32) (ha : a.toNat < 2 ^ 31) : a.toInt = (a.toNat : Int) := by
  rw [BitVec.toInt_eq_msb_cond, BitVec.msb_eq_false_iff_two_mul_lt.mpr (by omega)]; simp

section Cols
variable (x6 : SPts.Idx → BitVec 32)

/-- The first coordinate column of the points, read at point `n`. -/
theorem v1_at (n : Fin NP) : val_main_v1 (F := Ideal) x6 (ix1 n) = x6 (ix2 n (0 : Fin 2)) := by
  rw [val_main_v1_apply, val_main_v0_apply]
  congr 1
  funext a
  match a with
  | ⟨0, _⟩ => exact Fin.ext (Nat.div_one _)
  | ⟨1, _⟩ => rfl

/-- The second coordinate column of the points, read at point `n`. -/
theorem v3_at (n : Fin NP) : val_main_v3 (F := Ideal) x6 (ix1 n) = x6 (ix2 n (1 : Fin 2)) := by
  rw [val_main_v3_apply, val_main_v2_apply]
  congr 1
  funext a
  match a with
  | ⟨0, _⟩ => exact Fin.ext (Nat.div_one _)
  | ⟨1, _⟩ => rfl

end Cols

section Cols2
variable (x6 : SPts.Idx → BitVec 32) (hg : GridInRange x6)
include hg

/-- In range, the wrapped coordinate columns are the coordinates themselves, and so are the two index arrays built of them. -/
theorem v40_at (n : Fin NP) : val_main_v40 (F := Ideal) x6 (ix1 n) = x6 (ix2 n (0 : Fin 2)) := by
  rw [val_main_v40_apply, val_main_v37_apply, val_main_v39_apply, v1_at, val_main_v36_apply, val_main_c_5_apply]
  exact wrap_nonneg _ _ (by have := hg n 0; omega)

theorem v45_at (n : Fin NP) : val_main_v45 (F := Ideal) x6 (ix1 n) = x6 (ix2 n (1 : Fin 2)) := by
  rw [val_main_v45_apply, val_main_v42_apply, val_main_v44_apply, v3_at, val_main_v41_apply, val_main_c_7_apply]
  exact wrap_nonneg _ _ (by have := hg n 1; omega)

theorem v8_at (n : Fin NP) : val_main_v8 (F := Ideal) x6 (ix1 n) = x6 (ix2 n (0 : Fin 2)) := by
  rw [val_main_v8_apply, val_main_v5_apply, val_main_v7_apply, v1_at, val_main_v4_apply, val_main_c_apply]
  exact wrap_nonneg _ _ (by have := hg n 0; omega)

theorem v13_at (n : Fin NP) : val_main_v13 (F := Ideal) x6 (ix1 n) = x6 (ix2 n (1 : Fin 2)) := by
  rw [val_main_v13_apply, val_main_v10_apply, val_main_v12_apply, v3_at, val_main_v9_apply, val_main_c_1_apply]
  exact wrap_nonneg _ _ (by have := hg n 1; omega)

theorem v48_at0 (n : Fin NP) : val_main_v48 (F := Ideal) x6 (ix2 n (0 : Fin 2)) = x6 (ix2 n (0 : Fin 2)) := by
  unfold val_main_v48
  refine (concatenate_pair_apply_left (t := S1048576x2) (s₁ := S1048576x1) (s₂ := S1048576x1) (1 : Fin 2) _ _ _ _ rfl
    (ix2 n (0 : Fin 1)) (fun b => by match b with | ⟨0, _⟩ => rfl | ⟨1, _⟩ => rfl)).trans ?_
  rw [val_main_v46_apply]
  exact v40_at x6 hg n

theorem v48_at1 (n : Fin NP) : val_main_v48 (F := Ideal) x6 (ix2 n (1 : Fin 2)) = x6 (ix2 n (1 : Fin 2)) := by
  unfold val_main_v48
  refine (concatenate_pair_apply_right (t := S1048576x2) (s₁ := S1048576x1) (s₂ := S1048576x1) (1 : Fin 2) _ _ _ _ rfl rfl
    (ix2 n (0 : Fin 1)) (fun b hb => by match b with | ⟨0, _⟩ => rfl | ⟨1, _⟩ => exact absurd rfl hb) rfl).trans ?_
  rw [val_main_v47_apply]
  exact v45_at x6 hg n

theorem v16_at0 (n : Fin NP) : val_main_v16 (F := Ideal) x6 (ix2 n (0 : Fin 2)) = x6 (ix2 n (0 : Fin 2)) := by
  unfold val_main_v16
  refine (concatenate_pair_apply_left (t := S1048576x2) (s₁ := S1048576x1) (s₂ := S1048576x1) (1 : Fin 2) _ _ _ _ rfl
    (ix2 n (0 : Fin 1)) (fun b => by match b with | ⟨0, _⟩ => rfl | ⟨1, _⟩ => rfl)).trans ?_
  rw [val_main_v14_apply]
  exact v8_at x6 hg n

theorem v16_at1 (n : Fin NP) : val_main_v16 (F := Ideal) x6 (ix2 n (1 : Fin 2)) = x6 (ix2 n (1 : Fin 2)) := by
  unfold val_main_v16
  refine (concatenate_pair_apply_right (t := S1048576x2) (s₁ := S1048576x1) (s₂ := S1048576x1) (1 : Fin 2) _ _ _ _ rfl rfl
    (ix2 n (0 : Fin 1)) (fun b hb => by match b with | ⟨0, _⟩ => rfl | ⟨1, _⟩ => exact absurd rfl hb) rfl).trans ?_
  rw [val_main_v15_apply]
  exact v13_at x6 hg n

end Cols2

section Gathers
variable (x0 : SGrid.Idx → EReal) (x1 : STab.Idx → EReal) (x6 : SPts.Idx → BitVec 32) (x7 : SIds.Idx → BitVec 32)

/-- The positional features gathered for point `n` are those of the cell the point is on. -/
theorem v17_at (hg : GridInRange x6) (n : Fin NP) (e : Fin 64) :
    val_main_v17 (F := Ideal) x0 x6 (ix2 n e)
      = x0 (ix3 ⟨(x6 (ix2 n (0 : Fin 2))).toNat, hg n 0⟩ ⟨(x6 (ix2 n (1 : Fin 2))).toNat, hg n 1⟩ e) := by
  unfold val_main_v17
  have hd : gather_S1024x1024x64_S1048576x2_S1048576x64_1_01_n_n_01_1_1164
      = Cert.LibGridScatter.gridGDims 1024 1024 64 1048576
          Facts₀.gather_S1024x1024x64_S1048576x2_S1048576x64_1_01_n_n_01_1_1164_wf := rfl
  rw [hd]
  refine (Cert.LibGridScatter.gridGather_apply (by decide) (by decide) _ x0 _ n e).trans ?_
  have h0 := hg n 0
  have h1 := hg n 1
  congr 1
  funext a
  match a with
  | ⟨0, _⟩ =>
    refine Fin.ext ?_
    show min (val_main_v16 (F := Ideal) x6 (ix2 n (0 : Fin 2))).toInt.toNat (1024 - 1) = _
    rw [v16_at0 x6 hg, toInt_small _ (by omega)]
    show min (Int.toNat ((x6 (ix2 n (0 : Fin 2))).toNat : Int)) (1024 - 1) = (x6 (ix2 n (0 : Fin 2))).toNat
    rw [Int.toNat_natCast]; omega
  | ⟨1, _⟩ =>
    refine Fin.ext ?_
    show min (val_main_v16 (F := Ideal) x6 (ix2 n (1 : Fin 2))).toInt.toNat (1024 - 1) = _
    rw [v16_at1 x6 hg, toInt_small _ (by omega)]
    show min (Int.toNat ((x6 (ix2 n (1 : Fin 2))).toNat : Int)) (1024 - 1) = (x6 (ix2 n (1 : Fin 2))).toNat
    rw [Int.toNat_natCast]; omega
  | ⟨2, _⟩ => rfl

/-- The object features gathered for point `n` are the table row its object id names. -/
theorem v24_at (hi : IdsInRange x7) (n : Fin NP) (e : Fin 64) :
    val_main_v24 (F := Ideal) x1 x7 (ix2 n e) = x1 (ix2 (rowOf (x7 (ix1 n))) e) := by
  unfold val_main_v24
  have hd : gather_S4096x64_S1048576x1_S1048576x64_1_0_n_n_0_1_164
      = Cert.LibRowGather.rowDims2 4096 64 1048576 Facts₀.gather_S4096x64_S1048576x1_S1048576x64_1_0_n_n_0_1_164_wf := rfl
  rw [hd]
  refine (Cert.LibRowGather.rowGather2_apply (by decide) _ x1 _ n e).trans ?_
  have h0 := hi n
  congr 1
  funext a
  match a with
  | ⟨0, _⟩ =>
    refine Fin.ext ?_
    show min (val_main_v23 (F := Ideal) x7 (ix2 n (0 : Fin 1))).toInt.toNat (4096 - 1) = (x7 (ix1 n)).toNat % 4096
    rw [val_main_v23_apply, val_main_v22_apply, val_main_v19_apply, val_main_v21_apply, val_main_v18_apply,
      val_main_c_3_apply]
    have hix : idx_main_v23 (ix2 n (0 : Fin 1)) = ix1 n := by
      funext b; match b with | ⟨0, _⟩ => rfl
    rw [hix, wrap_nonneg _ _ (by omega), toInt_small _ (by omega), Int.toNat_natCast, Nat.mod_eq_of_lt h0]
    omega
  | ⟨1, _⟩ => rfl

end Gathers

section Mlp
variable (x0 : SGrid.Idx → EReal) (x1 : STab.Idx → EReal) (x2 : SW1.Idx → EReal) (x3 : SB1.Idx → EReal)
  (x4 : SW2.Idx → EReal) (x5 : SB2.Idx → EReal) (x6 : SPts.Idx → BitVec 32) (x7 : SIds.Idx → BitVec 32)

/-- The perceptron's inputs for point `n`: its cell's positional features joined with its object's features. -/
def inputsOf (hg : GridInRange x6) (n : Fin NP) : Fin 128 → EReal :=
  fused (fun e => x0 (ix3 ⟨(x6 (ix2 n (0 : Fin 2))).toNat, hg n 0⟩ ⟨(x6 (ix2 n (1 : Fin 2))).toNat, hg n 1⟩ e))
    (fun e => x1 (ix2 (rowOf (x7 (ix1 n))) e))

theorem v25_at (hg : GridInRange x6) (hi : IdsInRange x7) (n : Fin NP) (k : Fin 128) :
    val_main_v25 (F := Ideal) x0 x1 x6 x7 (ix2 n k) = inputsOf x0 x1 x6 x7 hg n k := by
  unfold inputsOf fused
  unfold val_main_v25
  by_cases hk : k.val < 64
  · rw [dif_pos hk]
    refine (concatenate_pair_apply_left (t := S1048576x128) (s₁ := S1048576x64) (s₂ := S1048576x64) (1 : Fin 2) _ _ _ _ rfl
      (ix2 n (⟨k.val, hk⟩ : Fin 64)) (fun b => by match b with | ⟨0, _⟩ => rfl | ⟨1, _⟩ => rfl)).trans ?_
    exact v17_at x0 x6 hg n _
  · rw [dif_neg hk]
    have hk2 : k.val - 64 < 64 := by have := k.isLt; omega
    refine (concatenate_pair_apply_right (t := S1048576x128) (s₁ := S1048576x64) (s₂ := S1048576x64) (1 : Fin 2) _ _ _ _ rfl rfl
      (ix2 n (⟨k.val - 64, hk2⟩ : Fin 64)) (fun b hb => by match b with | ⟨0, _⟩ => rfl | ⟨1, _⟩ => exact absurd rfl hb)
      (by show k.val - 64 + 64 = k.val; omega)).trans ?_
    exact v24_at x1 x7 hi n _

theorem v30_at (hg : GridInRange x6) (hi : IdsInRange x7) (n : Fin NP) (j : Fin 128) :
    val_main_v30 (F := Ideal) x0 x1 x2 x3 x6 x7 (ix2 n j) = Bev.hidden x2 x3 (inputsOf x0 x1 x6 x7 hg n) j := by
  rw [val_main_v30_apply, val_main_v29_apply, val_main_v26_apply, val_main_v28_apply, val_main_v27_apply,
    val_main_call0_v0_apply, val_main_call0_cst_apply, Ideal.maximumf_def, Ideal.addf_def]
  unfold Bev.hidden
  have hz : (FloatOps.ofBits .f32 0x00000000#32 : Ideal .f32) = 0 := Ideal.ofBits_zero_f32
  rw [hz]
  have hb : idx_main_v27 (idx_main_v28 (ix2 n j)) = ix1 j := by
    funext a; match a with | ⟨0, _⟩ => rfl
  rw [hb]
  congr 2
  refine Finset.sum_congr rfl fun k _ => ?_
  have hl : lidx_main_v26 (ix2 n j) k = ix2 n k := by
    funext a; match a with | ⟨0, _⟩ => rfl | ⟨1, _⟩ => rfl
  have hr : ridx_main_v26 (ix2 n j) k = ix2 k j := by
    funext a; match a with | ⟨0, _⟩ => rfl | ⟨1, _⟩ => rfl
  rw [hl, hr, v25_at x0 x1 x6 x7 hg hi]

theorem v34_at (hg : GridInRange x6) (hi : IdsInRange x7) (n : Fin NP) (d : Fin 64) :
    val_main_v34 (F := Ideal) x0 x1 x2 x3 x4 x5 x6 x7 (ix2 n d) = mlp x2 x3 x4 x5 (inputsOf x0 x1 x6 x7 hg n) d := by
  rw [val_main_v34_apply, val_main_v31_apply, val_main_v33_apply, val_main_v32_apply, Ideal.addf_def]
  unfold mlp
  have hb : idx_main_v32 (idx_main_v33 (ix2 n d)) = ix1 d := by
    funext a; match a with | ⟨0, _⟩ => rfl
  rw [hb]
  congr 1
  refine Finset.sum_congr rfl fun k _ => ?_
  have hl : lidx_main_v31 (ix2 n d) k = ix2 n k := by
    funext a; match a with | ⟨0, _⟩ => rfl | ⟨1, _⟩ => rfl
  have hr : ridx_main_v31 (ix2 n d) k = ix2 k d := by
    funext a; match a with | ⟨0, _⟩ => rfl | ⟨1, _⟩ => rfl
  rw [hl, hr, v30_at x0 x1 x2 x3 x6 x7 hg hi]

end Mlp

section Scatter
variable (x0 : SGrid.Idx → EReal) (x1 : STab.Idx → EReal) (x2 : SW1.Idx → EReal) (x3 : SB1.Idx → EReal)
  (x4 : SW2.Idx → EReal) (x5 : SB2.Idx → EReal) (x6 : SPts.Idx → BitVec 32) (x7 : SIds.Idx → BitVec 32)

/-- Update entry `(n, d')` lands on grid entry `(y, x, d)` exactly when point `n` is on cell `(y, x)` and `d' = d`. -/
theorem land_iff (hg : GridInRange x6) (n : Fin NP) (d' : Fin 64) (y x : Fin 1024) (d : Fin 64) :
    (Cert.LibGridScatter.gridSDims 1024 1024 64 1048576
        Facts₀.scatter_S1024x1024x64_S1048576x2_S1048576x64_1_01_01_1_wf).resultIdx? (ix2 n d')
        (val_main_v48 (F := Ideal) x6) = some (ix3 y x d)
      ↔ n ∈ hits x6 y.val x.val ∧ d' = d := by
  have h0 := hg n 0
  have h1 := hg n 1
  rw [Cert.LibGridScatter.gridSDims_resultIdx_iff, v48_at0 x6 hg, v48_at1 x6 hg, toInt_small _ (by omega),
    toInt_small _ (by omega), mem_hits]
  constructor
  · rintro ⟨a, b, c⟩
    exact ⟨⟨by omega, by omega⟩, c⟩
  · rintro ⟨⟨a, b⟩, c⟩
    exact ⟨by omega, by omega, c⟩

/-- The scatter's result at an entry is the grid function there. -/
theorem v49_at (hg : GridInRange x6) (hi : IdsInRange x7) (y x : Fin 1024) (d : Fin 64) :
    val_main_v49 (F := Ideal) x0 x1 x2 x3 x4 x5 x6 x7 (ix3 y x d) = bevAt x0 x1 x2 x3 x4 x5 x6 x7 y x d := by
  unfold val_main_v49
  have hd : scatter_S1024x1024x64_S1048576x2_S1048576x64_1_01_01_1
      = Cert.LibGridScatter.gridSDims 1024 1024 64 1048576
          Facts₀.scatter_S1024x1024x64_S1048576x2_S1048576x64_1_01_01_1_wf := rfl
  rw [hd]
  cases hl : lastOn x6 y.val x.val with
  | none =>
    have hnone := lastOn_none hl
    rw [bevAt_of_none d hl]
    refine (Cert.LibScatterSet.scatter_set_miss _ _ _ _ _ (fun j hj => ?_)).trans ?_
    · rw [eq_ix2 j] at hj
      exact hnone _ ((land_iff x6 hg _ _ y x d).mp hj).1
    · rw [val_main_v35_apply, val_main_cst_apply]
      exact Ideal.ofBits_zero_f32
  | some n =>
    obtain ⟨hmem, hlater⟩ := lastOn_some hl
    rw [bevAt_of_some d hl]
    refine (Cert.LibScatterSet.scatter_set_hit _ _ _ _ _ (ix2 n d) ((land_iff x6 hg n d y x d).mpr ⟨hmem, rfl⟩)
      (fun j' hlt hj' => ?_)).trans ?_
    · rw [eq_ix2 j'] at hj'
      obtain ⟨hm', hd'⟩ := (land_iff x6 hg _ _ y x d).mp hj'
      rw [Shape.rowMajor_val_two, Shape.rowMajor_val_two] at hlt
      have hle : ¬ n < j' 0 := fun h => hlater _ h hm'
      have hle' : (j' 0).val ≤ n.val := Fin.not_lt.mp hle
      have hdv : (j' 1).val = d.val := congrArg Fin.val hd'
      have hlt' : n.val * 64 + d.val < (j' 0).val * 64 + (j' 1).val := hlt
      omega
    · rw [v34_at x0 x1 x2 x3 x4 x5 x6 x7 hg hi]
      have hm := (mem_hits x6 y.val x.val n).mp hmem
      have hy : (⟨(x6 (ix2 n (0 : Fin 2))).toNat, hg n 0⟩ : Fin 1024) = y := Fin.ext hm.1
      have hx : (⟨(x6 (ix2 n (1 : Fin 2))).toNat, hg n 1⟩ : Fin 1024) = x := Fin.ext hm.2
      unfold inputsOf
      rw [hy, hx]

end Scatter

variable (m : (ℓ : Loc nD τ sig) → Buf (Elt Ideal) ℓ)

/-- The argument arrays as launched, at their literal types. -/
abbrev argPos (c : Dev nD) : SGrid.Idx → EReal := m ((c.tc : Thread nD τ).loc main_arg0)
abbrev argTab (c : Dev nD) : STab.Idx → EReal := m ((c.tc : Thread nD τ).loc main_arg1)
abbrev argW1 (c : Dev nD) : SW1.Idx → EReal := m ((c.tc : Thread nD τ).loc main_arg2)
abbrev argB1 (c : Dev nD) : SB1.Idx → EReal := m ((c.tc : Thread nD τ).loc main_arg3)
abbrev argW2 (c : Dev nD) : SW2.Idx → EReal := m ((c.tc : Thread nD τ).loc main_arg4)
abbrev argB2 (c : Dev nD) : SB2.Idx → EReal := m ((c.tc : Thread nD τ).loc main_arg5)
abbrev argPts (c : Dev nD) : SPts.Idx → BitVec 32 := m ((c.tc : Thread nD τ).loc main_arg6)
abbrev argIds (c : Dev nD) : SIds.Idx → BitVec 32 := m ((c.tc : Thread nD τ).loc main_arg7)

/-- The reference run's result term is the grid function of the argument arrays. -/
theorem result_eq (c : Dev nD) (hg : GridInRange (argPts m c)) (hi : IdsInRange (argIds m c)) :
    Cert.ReferenceIdeal.Value.res_main_v49 (F := Ideal) m c
      = bev (argPos m c) (argTab m c) (argW1 m c) (argB1 m c) (argW2 m c) (argB2 m c) (argPts m c) (argIds m c) := by
  rw [Read.val_main_v49_eq]
  funext i
  have e := v49_at (argPos m c) (argTab m c) (argW1 m c) (argB1 m c) (argW2 m c) (argB2 m c) (argPts m c) (argIds m c)
    hg hi (i 0) (i 1) (i 2)
  exact (congrArg (val_main_v49 (F := Ideal) (argPos m c) (argTab m c) (argW1 m c) (argB1 m c) (argW2 m c) (argB2 m c)
    (argPts m c) (argIds m c)) (eq_ix3 (n0 := 1024) (n1 := 1024) (n2 := 64) i)).trans e

end Cert.ReferenceIdeal.RefValue

end
-- ==== Proof.lean ====
/-
  The certificate of the bird's-eye-view kernel against its reference, over the extended reals.

  The reference gathers, for every point, the positional features of its grid cell and the feature row of its object,
  runs a two-layer perceptron on the joined features and scatters the outputs onto the grid, a later point replacing an
  earlier one on the same cell.  The kernel first scatters only the object ids and an occupancy mask onto the cells —
  the same scatter order, so the same last point wins —, then computes, cell by cell, the perceptron of the cell's own
  positional features joined with the table row of the id kept there (picked by a one-hot matrix product), times the
  mask.  Both are the grid function `Cert.Bev.bev` of the arguments: a cell no point is on holds zero on both sides, and
  on a cell some point is on both hold the perceptron output of the last such point.  The claim needs the points'
  coordinates inside the grid and the object ids inside the table (the precondition's two index-range conjuncts): outside
  them the flattened cell index of the kernel and the two-index scatter of the reference name different cells.
-/
import proofs.«401134_j85289460564572_1_alg».proof.Defs
import proofs.«401134_j85289460564572_1_alg».proof.Proof.Gen.Kernel
import proofs.«401134_j85289460564572_1_alg».proof.Proof.Gen.Kernel.Skeleton
import proofs.«401134_j85289460564572_1_alg».proof.Proof.Gen.Kernel.Launch
import proofs.«401134_j85289460564572_1_alg».proof.Proof.Gen.Kernel.Points
import proofs.«401134_j85289460564572_1_alg».proof.Proof.Gen.Kernel.Frame
import proofs.«401134_j85289460564572_1_alg».proof.Proof.Gen.KernelIdeal
import proofs.«401134_j85289460564572_1_alg».proof.Proof.Gen.KernelIdeal.Skeleton
import proofs.«401134_j85289460564572_1_alg».proof.Proof.Gen.KernelIdeal.Launch
import proofs.«401134_j85289460564572_1_alg».proof.Proof.Gen.KernelIdeal.Points
import proofs.«401134_j85289460564572_1_alg».proof.Proof.Gen.KernelIdeal.Frame
import proofs.«401134_j85289460564572_1_alg».proof.Proof.Gen.ReferenceIdeal
import proofs.«401134_j85289460564572_1_alg».proof.Proof.Gen.Pre_finite_inputs
import proofs.«401134_j85289460564572_1_alg».proof.Proof.Gen.KernelIdeal.Value
import proofs.«401134_j85289460564572_1_alg».proof.Proof.Gen.ReferenceIdeal.Run
import proofs.«401134_j85289460564572_1_alg».proof.Proof.Gen.ReferenceIdeal.Read
import proofs.«401134_j85289460564572_1_alg».proof.Proof.Spec
import proofs.«401134_j85289460564572_1_alg».proof.Proof.PreRange
import proofs.«401134_j85289460564572_1_alg».proof.Proof.KernelValue
import proofs.«401134_j85289460564572_1_alg».proof.Proof.RefValue
import Idealize.ShloMosaic.Adequacy
import Idealize.ShloMosaic.Init

noncomputable section

namespace Cert.Proof

open Idealize.ShloMosaic Idealize.SL.Sem Cert.Kernel

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both runs end at the grid function of the (agreeing) arguments. -/
theorem algebraic [Cert.KernelIdeal.Facts] [Cert.ReferenceIdeal.Facts] [Cert.Pre_finite_inputs.Facts] :
    Cert.algebraic_KernelIdeal_ReferenceIdeal := by
  intro m ρ m' ρ' hpre hagree
  have hr : ∀ c : Dev Cert.KernelIdeal.nD,
      Cert.Bev.GridInRange (Cert.KernelIdeal.HostValue.argPts m c) ∧ Cert.Bev.IdsInRange (Cert.KernelIdeal.HostValue.argIds m c) :=
    fun c => Cert.Pre_finite_inputs.Range.ranges_of_pre _ _ _ _ _ _ _ _ (hpre c)
  refine ⟨fun c => Cert.Bev.bev (Cert.KernelIdeal.HostValue.argPos m c) (Cert.KernelIdeal.HostValue.argTab m c)
      (Cert.KernelIdeal.HostValue.argW1 m c) (Cert.KernelIdeal.HostValue.argB1 m c) (Cert.KernelIdeal.HostValue.argW2 m c)
      (Cert.KernelIdeal.HostValue.argB2 m c) (Cert.KernelIdeal.HostValue.argPts m c) (Cert.KernelIdeal.HostValue.argIds m c),
    Cert.KernelIdeal.GridValue.run m ρ (fun c => (hr c).1) (fun c => (hr c).2), ?_⟩
  refine (θ_run Cert.ReferenceIdeal.defs _ _).mono (fun _ h c => ⟨(h c).1.trans ?_, (h c).2⟩)
    (Cert.ReferenceIdeal.Value.run (F := Ideal) m' ρ')
  have hg' : Cert.Bev.GridInRange (Cert.ReferenceIdeal.RefValue.argPts m' c) := by
    dsimp only [Cert.ReferenceIdeal.RefValue.argPts]
    rw [(hagree c).2.2.2.2.2.2.1]
    exact (hr c).1
  have hi' : Cert.Bev.IdsInRange (Cert.ReferenceIdeal.RefValue.argIds m' c) := by
    dsimp only [Cert.ReferenceIdeal.RefValue.argIds]
    rw [(hagree c).2.2.2.2.2.2.2]
    exact (hr c).2
  have e := Cert.ReferenceIdeal.RefValue.result_eq m' c hg' hi'
  dsimp only [Cert.ReferenceIdeal.RefValue.argPos, Cert.ReferenceIdeal.RefValue.argTab, Cert.ReferenceIdeal.RefValue.argW1,
    Cert.ReferenceIdeal.RefValue.argB1, Cert.ReferenceIdeal.RefValue.argW2, Cert.ReferenceIdeal.RefValue.argB2,
    Cert.ReferenceIdeal.RefValue.argPts, Cert.ReferenceIdeal.RefValue.argIds] at e
  rw [(hagree c).1, (hagree c).2.1, (hagree c).2.2.1, (hagree c).2.2.2.1, (hagree c).2.2.2.2.1, (hagree c).2.2.2.2.2.1,
    (hagree c).2.2.2.2.2.2.1, (hagree c).2.2.2.2.2.2.2] at e
  exact e

theorem claim : Cert.Claim := ⟨Cert.Kernel.Gen.facts, Cert.KernelIdeal.Gen.facts, Cert.ReferenceIdeal.Gen.facts, Cert.Pre_finite_inputs.Gen.facts,
  @frame_k Cert.Kernel.Gen.facts Cert.Pre_finite_inputs.Gen.facts,
  @frame_ki Cert.KernelIdeal.Gen.facts Cert.Pre_finite_inputs.Gen.facts,
  @frame_ri Cert.ReferenceIdeal.Gen.facts Cert.Pre_finite_inputs.Gen.facts,
  trivial,
  @algebraic Cert.KernelIdeal.Gen.facts Cert.ReferenceIdeal.Gen.facts Cert.Pre_finite_inputs.Gen.facts⟩

end Cert.Proof

end
